-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S64x192 : Shape := ⟨2, ![64, 192]⟩
abbrev S64 : Shape := ⟨1, ![64]⟩
abbrev S64x64 : Shape := ⟨2, ![64, 64]⟩
abbrev S64x128 : Shape := ⟨2, ![64, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x192 : S_.BroadcastsInDim S64x192 (![] : Fin 0 → Fin S64x192.rank)
  reducesTo_S64x192_S_d0_1 : S64x192.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_v48 : IVec S_ 1) (main_v50 : IVec S2x800000 1) : IVec S_ 1 :=
  let main_c_19 : IVec S_ 32 := constantI S_ 32 50000#32
  let main_v51 : IVec S2x800000 32 := broadcastInDim S2x800000 ![] bcast_S_S2x800000 main_c_19
  let main_v52 : IVec S2x800000 1 := cmpi .slt main_arg1 main_v51
  let main_v53 : IVec S2x800000 1 := andi main_v50 main_v52
  let main_c_20 : IVec S_ 1 := constantI S_ 1 1#1
  let main_v54 : IVec S_ 1 := (fun x v => Host.reduce IntOp.andi x v reducesTo_S2x800000_S_d0_1 h_S_) main_v53 main_c_20
  let main_v55 : IVec S_ 1 := andi main_v48 main_v54
  main_v55

def fn_part2 {F : FTy → Type} [FloatOps F] (main_arg1 : IVec S2x800000 32) (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S2x800000 32 := broadcastInDim S2x800000 ![] bcast_S_S2x800000 main_c_18
  let main_v50 : IVec S2x800000 1 := cmpi .sge main_arg1 main_v49
  fn_part3 (F := F) main_arg1 main_v48 main_v50

def fn_part1 {F : FTy → Type} [FloatOps F] (main_arg1 : IVec S2x800000 32) (main_arg5 : FVec F S64x64 .f32) (main_arg6 : FVec F S64 .f32) (main_arg7 : FVec F S64x128 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x64 .f32) (main_arg1 : IVec S2x800000 32) (main_arg2 : FVec F S800000x64 .f32) (main_arg3 : FVec F S64x192 .f32) (main_arg4 : FVec F S64 .f32) (main_arg5 : FVec F S64x64 .f32) (main_arg6 : FVec F S64 .f32) (main_arg7 : FVec F S64x128 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x192 .f32 := Host.absf main_arg3
  let main_cst_2 : FVec F S_ .f32 := constant S_ .f32 0x7F800000#32
  let main_v10 : FVec F S64x192 .f32 := broadcastInDim S64x192 ![] bcast_S_S64x192 main_cst_2
  let main_v11 : IVec S64x192 1 := cmpf .olt main_v9 main_v10
  let main_c_3 : IVec S_ 1 := constantI S_ 1 1#1
  let main_v12 : IVec S_ 1 := (fun x v => Host.reduce IntOp.andi x v reducesTo_S64x192_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S64x192 : Shape := ⟨2, ![64, 192]⟩
abbrev S64 : Shape := ⟨1, ![64]⟩
abbrev S64x64 : Shape := ⟨2, ![64, 64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S1x64 : Shape := ⟨2, ![1, 64]⟩
abbrev S8000x64 : Shape := ⟨2, ![8000, 64]⟩
abbrev S5000x64 : Shape := ⟨2, ![5000, 64]⟩

abbrev nBuf : Space → Nat
  | .hbm => 77
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x192, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x64, .f32⟩
  | .hbm, ⟨34, _⟩ => ⟨S800000x64, .i1⟩
  | .hbm, ⟨35, _⟩ => ⟨S_, .f32⟩
  | .hbm, ⟨36, _⟩ => ⟨S800000x64, .f32⟩
  | .hbm, ⟨37, _⟩ => ⟨S800000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S1, .i32⟩
  | .hbm, ⟨47, _⟩ => ⟨S_, .i32⟩
  | .hbm, ⟨48, _⟩ => ⟨S800000x1, .i32⟩
  | .hbm, ⟨49, _⟩ => ⟨S800000x1, .i1⟩
  | .hbm, ⟨50, _⟩ => ⟨S1x1, .i32⟩
  | .hbm, ⟨51, _⟩ => ⟨S800000x1, .i32⟩
  | .hbm, ⟨52, _⟩ => ⟨S800000x1, .i1⟩
  | .hbm, ⟨53, _⟩ => ⟨S800000x1, .i1⟩
  | .hbm, ⟨54, _⟩ => ⟨S_, .i1⟩
  | .hbm, ⟨55, _⟩ => ⟨S800000, .i1⟩
  | .hbm, ⟨56, _⟩ => ⟨S800000x64, .f32⟩
  | .hbm, ⟨57, _⟩ => ⟨S800000x64, .i1⟩
  | .hbm, ⟨58, _⟩ => ⟨S_, .f32⟩
  | .hbm, ⟨59, _⟩ => ⟨S800000x64, .f32⟩
  | .hbm, ⟨60, _⟩ => ⟨S800000x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S1x64, .f32⟩
  | .hbm, ⟨65, _⟩ => ⟨S1x64, .f32⟩
  | .hbm, ⟨66, _⟩ => ⟨S800000x64, .f32⟩
  | .hbm, ⟨67, _⟩ => ⟨S_, .f32⟩
  | .hbm, ⟨68, _⟩ => ⟨S50000x64, .f32⟩
  | .hbm, ⟨69, _⟩ => ⟨S800000x1, .i32⟩
  | .hbm, ⟨70, _⟩ => ⟨S50000x64, .f32⟩
  | .hbm, ⟨71, _⟩ => ⟨S50000x64, .f32⟩
  | .hbm, ⟨72, _⟩ => ⟨S64x64, .f32⟩
  | .hbm, ⟨73, _⟩ => ⟨S64x64, .f32⟩
  | .hbm, ⟨74, _⟩ => ⟨S1x64, .f32⟩
  | .hbm, ⟨75, _⟩ => ⟨S1x64, .f32⟩
  | .hbm, ⟨76, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_cst : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S64x192_S64x64_0_0 : S64x192.Slices ![0, 0] S64x64
  slices_S64x192_S64x64_0_64 : S64x192.Slices ![0, 64] S64x64
  slices_S64x192_S64x64_0_128 : S64x192.Slices ![0, 128] S64x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  slices_S64x128_S64x64_0_0 : S64x128.Slices ![0, 0] S64x64
  slices_S64x128_S64x64_0_64 : S64x128.Slices ![0, 64] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v4) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S64x192 : Shape := ⟨2, ![64, 192]⟩
abbrev S64 : Shape := ⟨1, ![64]⟩
abbrev S64x64 : Shape := ⟨2, ![64, 64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S192x64 : Shape := ⟨2, ![192, 64]⟩
abbrev S1x64 : Shape := ⟨2, ![1, 64]⟩
abbrev S50000x128 : Shape := ⟨2, ![50000, 128]⟩
abbrev S128x64 : Shape := ⟨2, ![128, 64]⟩

abbrev nBuf : Space → Nat
  | .hbm => 66
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S64x192, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x192, .f32⟩
  | .hbm, ⟨34, _⟩ => ⟨S192x64, .f32⟩
  | .hbm, ⟨35, _⟩ => ⟨S800000x64, .f32⟩
  | .hbm, ⟨36, _⟩ => ⟨S1x64, .f32⟩
  | .hbm, ⟨37, _⟩ => ⟨S800000x64, .f32⟩
  | .hbm, ⟨38, _⟩ => ⟨S800000x64, .f32⟩
  | .hbm, ⟨39, _⟩ => ⟨S_, .f32⟩
  | .hbm, ⟨40, _⟩ => ⟨S800000x64, .f32⟩
  | .hbm, ⟨41, _⟩ => ⟨S800000x64, .f32⟩
  | .hbm, ⟨42, _⟩ => ⟨S64x64, .f32⟩
  | .hbm, ⟨43, _⟩ => ⟨S800000x64, .f32⟩
  | .hbm, ⟨44, _⟩ => ⟨S1x64, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x64, .f32⟩
  | .hbm, ⟨52, _⟩ => ⟨S50000x128, .f32⟩
  | .hbm, ⟨53, _⟩ => ⟨S128x64, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | .hbm, ⟨58, _⟩ => ⟨S_, .f32⟩
  | .hbm, ⟨59, _⟩ => ⟨S50000x64, .f32⟩
  | .hbm, ⟨60, _⟩ => ⟨S50000x64, .f32⟩
  | .hbm, ⟨61, _⟩ => ⟨S64x64, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call1_cst : Ref sig .tc := ⟨.hbm, 58, rfl⟩
abbrev main_call1_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  transposes_S64x192_S192x64_1_0 : S64x192.Transposes [1, 0] S192x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  transposes_S64x64_S64x64_1_0 : S64x64.Transposes [1, 0] S64x64
  bcast_S_S50000x64 : S_.BroadcastsInDim S50000x64 (![] : Fin 0 → Fin S50000x64.rank)
  concatenates_S50000x64_S50000x64_S50000x128_d1 : Shape.Concatenates [S50000x64, S50000x64] S50000x128 1
  transposes_S64x128_S128x64_1_0 : S64x128.Transposes [1, 0] S128x64
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The two row-wise perceptron stages of the message-passing layer, as functions of whole arrays read index by index
  over the extended reals.

  Edge stage. For edge `e` and hidden unit `k`, the pre-activation is the sum of three 64-term products — the
  source node's row against the first weight block, the edge's own row against the second, the destination node's
  row against the third — plus the bias; the hidden value is its positive part; output column `j` is the hidden row
  against row `j` of the second weight table, plus the second bias.

  Node stage. The same with two 64-term products (the node's own row, and its aggregated row).

  The weight blocks enter as 64 x 64 tables whose entry `(k, a)` multiplies input column `a` for hidden unit `k`
  (so the products are against the tables' transposes), and the biases as 1 x 64 rows.
-/
import Idealize.ShloMosaic.PureOps.Ideal
import Idealize.ShloMosaic.Lib.ValueIdx

noncomputable section

open scoped BigOperators

namespace Cert.Spec

open Idealize.ShloMosaic Idealize.ShloMosaic.ValueIdx

/-- edges x 64 -/
abbrev SE : Shape := ⟨2, ![800000, 64]⟩
/-- nodes x 64 -/
abbrev SN : Shape := ⟨2, ![50000, 64]⟩
/-- a 64 x 64 weight block -/
abbrev SW : Shape := ⟨2, ![64, 64]⟩
/-- a bias as a 1 x 64 row -/
abbrev SB : Shape := ⟨2, ![1, 64]⟩

/-- Hidden value of edge `e`, unit `k`: the positive part of three 64-term products plus the bias. -/
def edgeHid (fs fe fd : SE.Idx → EReal) (ws we wd : SW.Idx → EReal) (b : SB.Idx → EReal)
    (e : Fin 800000) (k : Fin 64) : EReal :=
  max ((((∑ a : Fin 64, fs (ix2 e a) * ws (ix2 k a)) + ∑ a : Fin 64, fe (ix2 e a) * we (ix2 k a))
      + ∑ a : Fin 64, fd (ix2 e a) * wd (ix2 k a)) + b (ix2 0 k)) 0

/-- The edge stage's output array. -/
def edgeOut (fs fe fd : SE.Idx → EReal) (ws we wd : SW.Idx → EReal) (b : SB.Idx → EReal)
    (w2 : SW.Idx → EReal) (b2 : SB.Idx → EReal) : SE.Idx → EReal :=
  fun i => (∑ k : Fin 64, edgeHid fs fe fd ws we wd b (i 0) k * w2 (ix2 (i 1) k)) + b2 (ix2 0 (i 1))

/-- Hidden value of node `n`, unit `k`: the positive part of two 64-term products plus the bias. -/
def nodeHid (x s : SN.Idx → EReal) (wa wb : SW.Idx → EReal) (b : SB.Idx → EReal)
    (n : Fin 50000) (k : Fin 64) : EReal :=
  max (((∑ a : Fin 64, x (ix2 n a) * wa (ix2 k a)) + ∑ a : Fin 64, s (ix2 n a) * wb (ix2 k a)) + b (ix2 0 k)) 0

/-- The node stage's output array. -/
def nodeOut (x s : SN.Idx → EReal) (wa wb : SW.Idx → EReal) (b : SB.Idx → EReal)
    (w4 : SW.Idx → EReal) (b4 : SB.Idx → EReal) : SN.Idx → EReal :=
  fun i => (∑ k : Fin 64, nodeHid x s wa wb b (i 0) k * w4 (ix2 (i 1) k)) + b4 (ix2 0 (i 1))

/-! ## The host side shared by both programs, and the whole layer -/

/-- 800000 indices -/
abbrev SI : Shape := ⟨1, ![800000]⟩
/-- the same as a column -/
abbrev SI1 : Shape := ⟨2, ![800000, 1]⟩
abbrev S0 : Shape := ⟨0, ![]⟩
abbrev S1 : Shape := ⟨1, ![1]⟩
abbrev S11 : Shape := ⟨2, ![1, 1]⟩
abbrev S2E : Shape := ⟨2, ![2, 800000]⟩
abbrev S1E : Shape := ⟨2, ![1, 800000]⟩
abbrev SW1 : Shape := ⟨2, ![64, 192]⟩
abbrev SW3 : Shape := ⟨2, ![64, 128]⟩
abbrev SV : Shape := ⟨1, ![64]⟩

theorem sl_E0 : S2E.Slices ![0, 0] S1E := by decide
theorem sl_E1 : S2E.Slices ![1, 0] S1E := by decide
theorem sc_E : S1E.ShapeCasts SI := by decide
theorem bc_0I : S0.BroadcastsInDim SI (![] : Fin 0 → Fin SI.rank) := by decide
theorem bc_II1 : SI.BroadcastsInDim SI1 (![0] : Fin 1 → Fin SI1.rank) := by decide
theorem bc_0I1 : S0.BroadcastsInDim SI1 (![] : Fin 0 → Fin SI1.rank) := by decide
theorem bc_1_11 : S1.BroadcastsInDim S11 (![1] : Fin 1 → Fin S11.rank) := by decide
theorem bc_11_I1 : S11.BroadcastsInDim SI1 (![0, 1] : Fin 2 → Fin SI1.rank) := by decide
theorem rd_I1 : SI1.ReducesTo [1] SI := by decide
theorem pos_0 : 0 < S0.numel := by decide
theorem bc_I_E : SI.BroadcastsInDim SE (![0] : Fin 1 → Fin SE.rank) := by decide
theorem bc_0E : S0.BroadcastsInDim SE (![] : Fin 0 → Fin SE.rank) := by decide
theorem bc_0N : S0.BroadcastsInDim SN (![] : Fin 0 → Fin SN.rank) := by decide
theorem sl_W1a : SW1.Slices ![0, 0] SW := by decide
theorem sl_W1b : SW1.Slices ![0, 64] SW := by decide
theorem sl_W1c : SW1.Slices ![0, 128] SW := by decide
theorem sl_W3a : SW3.Slices ![0, 0] SW := by decide
theorem sl_W3b : SW3.Slices ![0, 64] SW := by decide
theorem sc_V : SV.ShapeCasts SB := by decide
theorem gather_wf : GatherDims.WF SN SI1 SE [1] [0] [] [0] [] 1 ![1, 64] := by decide
theorem scatter_wf : ScatterDims.WF SN SI1 SE [1] [0] [0] 1 := by decide

/-- One row per index: row `idx e` of the table is row `e` of the result. -/
def gd : GatherDims SN SI1 SE where
  offsetDims := [1]
  collapsedSliceDims := [0]
  operandBatchingDims := []
  startIndicesBatchingDims := []
  startIndexMap := [0]
  indexVectorDim := 1
  sliceSizes := ![1, 64]
  wf := gather_wf

/-- Row `e` of the updates is added into row `idx e` of the table. -/
def sd : ScatterDims SN SI1 SE where
  updateWindowDims := [1]
  insertedWindowDims := [0]
  scatterDimsToOperandDims := [0]
  indexVectorDim := 1
  wf := scatter_wf

/-- The source node of every edge: row 0 of the index pair array. -/
def srcOf (E : IVec S2E 32) : IVec SI 32 := shapeCast SI (extractStridedSlice S1E ![0, 0] E sl_E0) sc_E
/-- The destination node of every edge: row 1. -/
def dstOf (E : IVec S2E 32) : IVec SI 32 := shapeCast SI (extractStridedSlice S1E ![1, 0] E sl_E1) sc_E

/-- An index with a negative value counted from the table's end, as a column. -/
def wrapped (idx : IVec SI 32) : IVec SI1 32 :=
  broadcastInDim SI1 ![0] bc_II1
    (select (cmpi .slt idx (broadcastInDim SI ![] bc_0I (constantI S0 32 0#32)))
      (addi idx (broadcastInDim SI ![] bc_0I (constantI S0 32 50000#32))) idx)

/-- The table's rows at the wrapped indices (an index outside the table reads its nearest row). -/
def rows (x : FVec Ideal SN .f32) (idx : IVec SI 32) : FVec Ideal SE .f32 :=
  Host.gather gd x (wrapped idx)

/-- The same, with every row whose wrapped index lies outside `[0, 49999]` replaced by the fill word. -/
def rowsMasked (x : FVec Ideal SN .f32) (idx : IVec SI 32) : FVec Ideal SE .f32 :=
  select
    (broadcastInDim SE ![0] bc_I_E
      (Host.reduce IntOp.andi
        (andi (cmpi .sge (wrapped idx) (broadcastInDim SI1 ![] bc_0I1 (constantI S0 32 0#32)))
          (cmpi .sle (wrapped idx) (broadcastInDim SI1 ![0, 1] bc_11_I1 (broadcastInDim S11 ![1] bc_1_11 (constantI S1 32 49999#32)))))
        (constantI S0 1 1#1) rd_I1 pos_0))
    (Host.gather gd x (wrapped idx))
    (broadcastInDim SE ![] bc_0E (constant (F := Ideal) S0 .f32 0x7FC00000#32))

/-- The whole layer from the gathered source and destination rows `fs`, `fd`: the edge stage over the three
    64-column blocks of `W1`; its rows summed into their source nodes and added to the node table; the node stage
    over the two 64-column blocks of `W3`. -/
def layer (X : FVec Ideal SN .f32) (E : IVec S2E 32) (A : FVec Ideal SE .f32) (W1 : FVec Ideal SW1 .f32)
    (b1 : FVec Ideal SV .f32) (W2 : FVec Ideal SW .f32) (b2 : FVec Ideal SV .f32) (W3 : FVec Ideal SW3 .f32)
    (b3 : FVec Ideal SV .f32) (W4 : FVec Ideal SW .f32) (b4 : FVec Ideal SV .f32) (fs fd : FVec Ideal SE .f32) :
    FVec Ideal SN .f32 :=
  nodeOut X
    (addf X
      (Host.scatterAdd sd (broadcastInDim SN ![] bc_0N (constant (F := Ideal) S0 .f32 0x00000000#32))
        (broadcastInDim SI1 ![0] bc_II1 (srcOf E))
        (edgeOut fs A fd (extractStridedSlice SW ![0, 0] W1 sl_W1a) (extractStridedSlice SW ![0, 64] W1 sl_W1b)
          (extractStridedSlice SW ![0, 128] W1 sl_W1c) (shapeCast SB b1 sc_V) W2 (shapeCast SB b2 sc_V))))
    (extractStridedSlice SW ![0, 0] W3 sl_W3a) (extractStridedSlice SW ![0, 64] W3 sl_W3b) (shapeCast SB b3 sc_V) W4
    (shapeCast SB b4 sc_V)

end Cert.Spec

end
-- ==== Proof.KernelEdge.lean ====
/-
  Region 0 (the edge stage), read as a value. Grid point `t` of 100 stages rows `8000 t … 8000 t + 7999` of the three
  edge-sized inputs and the whole of the six small operands, and writes back rows `8000 t …` of the output; the
  blocks tile the output array, so after the region it is the edge stage's function of the nine arrays as the
  region found them.
-/
import proofs.«407157_j86285892976708_1_alg».proof.Proof.Gen.KernelIdeal.Frame
import proofs.«407157_j86285892976708_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.EdgeValue

/-! ## One row of the edge stage inside the body

A product of a block of rows with a transposed 64 x 64 table, read at row `p` and column `q`, is the 64-term
product of row `p` with row `q` of the table; the bias row is read at column `q` whatever the row. -/

theorem lhs_dot_0 (i : S8000x64.Idx) (k : dot_S8000x64_S64x64_S8000x64_1_0_0_1_n_n.contr.Idx) :
    (dot_S8000x64_S64x64_S8000x64_1_0_0_1_n_n.lhsIdx i k 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_dot_1 (i : S8000x64.Idx) (k : dot_S8000x64_S64x64_S8000x64_1_0_0_1_n_n.contr.Idx) :
    (dot_S8000x64_S64x64_S8000x64_1_0_0_1_n_n.lhsIdx i k 1).val = (k ⟨0, by decide⟩).val :=
  dot_S8000x64_S64x64_S8000x64_1_0_0_1_n_n.lhsIdx_val_of_single rfl i k
theorem rhs_dot_0 (i : S8000x64.Idx) (k : dot_S8000x64_S64x64_S8000x64_1_0_0_1_n_n.contr.Idx) :
    (dot_S8000x64_S64x64_S8000x64_1_0_0_1_n_n.rhsIdx i k 0).val = (k ⟨0, by decide⟩).val :=
  dot_S8000x64_S64x64_S8000x64_1_0_0_1_n_n.rhsIdx_val_of_single rfl i k
theorem rhs_dot_1 (i : S8000x64.Idx) (k : dot_S8000x64_S64x64_S8000x64_1_0_0_1_n_n.contr.Idx) :
    (dot_S8000x64_S64x64_S8000x64_1_0_0_1_n_n.rhsIdx i k 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- Rows times a transposed table, into zero: entry `(p, q)` is row `p` against row `q` of the table. -/
theorem rows_times_transposed (x : FVec Ideal S8000x64 .bf16) (w : FVec Ideal S64x64 .bf16) (p : Fin 8000) (q : Fin 64) :
    matmul dot_S8000x64_S64x64_S8000x64_1_0_0_1_n_n none x (transpose S64x64 [1, 0] w transposes_S64x64_p1_0_S64x64)
        (constant (F := Ideal) S8000x64 .f32 0x00000000#32) (ix2 p q)
      = ∑ a : Fin 64, x (ix2 p a) * w (ix2 q a) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun a _ => ?_
  have ha := ValueIdx.contrEquiv1_symm_val dot_S8000x64_S64x64_S8000x64_1_0_0_1_n_n 64 rfl rfl a
  have el : dot_S8000x64_S64x64_S8000x64_1_0_0_1_n_n.lhsIdx (ix2 p q) ((ValueIdx.contrEquiv1 dot_S8000x64_S64x64_S8000x64_1_0_0_1_n_n 64 rfl rfl).symm a) = ix2 p a := funext fun b => Fin.ext (by
    match b with
    | ⟨0, _⟩ => exact lhs_dot_0 _ _
    | ⟨1, _⟩ => exact (lhs_dot_1 _ _).trans ha)
  have er : dot_S8000x64_S64x64_S8000x64_1_0_0_1_n_n.rhsIdx (ix2 p q) ((ValueIdx.contrEquiv1 dot_S8000x64_S64x64_S8000x64_1_0_0_1_n_n 64 rfl rfl).symm a) = ix2 a q := funext fun b => Fin.ext (by
    match b with
    | ⟨0, _⟩ => exact (rhs_dot_0 _ _).trans ha
    | ⟨1, _⟩ => exact rhs_dot_1 _ _)
  rw [el, er]
  exact congrArg (x (ix2 p a) * ·) (transpose_apply [1, 0] w transposes_S64x64_p1_0_S64x64 (ix2 a q) (ix2 q a) (fun b => match b with
    | ⟨0, _⟩ => rfl
    | ⟨1, _⟩ => rfl))

/-- The bias row spread over the rows reads its column. -/
theorem bias_row_apply (b : FVec Ideal S1x64 .f32) (p : Fin 8000) (q : Fin 64) :
    broadcastTo S8000x64 b broadcasts_S1x64_S8000x64 (ix2 p q) = b (ix2 0 q) :=
  broadcastTo_apply b broadcasts_S1x64_S8000x64 (ix2 p q) (ix2 0 q) (fun a => match a with
    | ⟨0, _⟩ => rfl
    | ⟨1, _⟩ => rfl)

/-- The body's result at row `p`, column `q`, from its nine loaded blocks: the hidden row — the positive part of
    the three 64-term products plus the first bias — against row `q` of the second table, plus the second bias. -/
theorem payload_apply (x0 x1 x2 : Vec Ideal S8000x64 .f32) (x3 x4 x5 x7 : Vec Ideal S64x64 .f32)
    (x6 x8 : Vec Ideal S1x64 .f32) (p : Fin 8000) (q : Fin 64) :
    k0_pay1 (k0_pay2 x0 x1 x2 x3 x4 x5 x6 x7) x8 (ix2 p q)
      = (∑ k : Fin 64, max ((((∑ a : Fin 64, x0 (ix2 p a) * x3 (ix2 k a)) + ∑ a : Fin 64, x1 (ix2 p a) * x4 (ix2 k a))
            + ∑ a : Fin 64, x2 (ix2 p a) * x5 (ix2 k a)) + x6 (ix2 0 k)) 0 * x7 (ix2 q k)) + x8 (ix2 0 q) := by
  unfold k0_pay1 k0_pay2
  dsimp only
  simp only [shapeCast_self]
  refine (addf_apply _ _ (ix2 p q)).trans ?_
  refine congrArg₂ (· + ·) ?_ (bias_row_apply x8 p q)
  refine (rows_times_transposed _ _ p q).trans ?_
  refine Finset.sum_congr rfl fun k _ => ?_
  refine congrArg (· * x7 (ix2 q k)) ?_
  refine (maximumf_apply _ _ (ix2 p k)).trans ?_
  refine congrArg₂ max ?_ Ideal.ofBits_zero_f32
  refine (addf_apply _ _ (ix2 p k)).trans ?_
  refine congrArg₂ (· + ·) ?_ (bias_row_apply x6 p k)
  refine (addf_apply _ _ (ix2 p k)).trans ?_
  refine congrArg₂ (· + ·) ?_ (rows_times_transposed _ _ p k)
  refine (addf_apply _ _ (ix2 p k)).trans ?_
  exact congrArg₂ (· + ·) (rows_times_transposed _ _ p k) (rows_times_transposed _ _ p k)

/-! ## From the blocks to the array

At grid point `t` the three edge-sized windows and the output window sit at block row `t`, the six small windows at
block `(0, 0)`: so a block's row `p` is the array's row `8000 t + p`, and the small blocks are their arrays. -/

theorem zero_offsets : (![0, 0] : Fin 2 → Nat) = fun _ => 0 := funext fun a => by fin_cases a <;> rfl

/-- The printed index maps over the grid: block row `t` for the windows that move, block `(0, 0)` for the rest. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The edge stage at row `r`, column `q`, written out. -/
theorem edgeOut_apply (fs fe fd : Cert.Spec.SE.Idx → EReal) (ws we wd : Cert.Spec.SW.Idx → EReal) (b : Cert.Spec.SB.Idx → EReal)
    (w2 : Cert.Spec.SW.Idx → EReal) (b2 : Cert.Spec.SB.Idx → EReal) (r : Fin 800000) (q : Fin 64) :
    Cert.Spec.edgeOut fs fe fd ws we wd b w2 b2 (ix2 r q)
      = (∑ k : Fin 64, max ((((∑ a : Fin 64, fs (ix2 r a) * ws (ix2 k a)) + ∑ a : Fin 64, fe (ix2 r a) * we (ix2 k a))
            + ∑ a : Fin 64, fd (ix2 r a) * wd (ix2 k a)) + b (ix2 0 k)) 0 * w2 (ix2 q k)) + b2 (ix2 0 q) := rfl

/-- The body's result at row `p` of a block whose rows are rows `r` of the arrays is the edge stage at row `r`. -/
theorem point_value (fs fe fd : Cert.Spec.SE.Idx → EReal) (ws we wd : Cert.Spec.SW.Idx → EReal) (b : Cert.Spec.SB.Idx → EReal)
    (w2 : Cert.Spec.SW.Idx → EReal) (b2 : Cert.Spec.SB.Idx → EReal)
    (x0 x1 x2 : Vec Ideal S8000x64 .f32) (x3 x4 x5 x7 : Vec Ideal S64x64 .f32) (x6 x8 : Vec Ideal S1x64 .f32)
    (p : Fin 8000) (q : Fin 64) (r : Fin 800000)
    (h0 : ∀ a : Fin 64, x0 (ix2 p a) = fs (ix2 r a)) (h1 : ∀ a : Fin 64, x1 (ix2 p a) = fe (ix2 r a))
    (h2 : ∀ a : Fin 64, x2 (ix2 p a) = fd (ix2 r a))
    (h3 : ∀ k a : Fin 64, x3 (ix2 k a) = ws (ix2 k a)) (h4 : ∀ k a : Fin 64, x4 (ix2 k a) = we (ix2 k a))
    (h5 : ∀ k a : Fin 64, x5 (ix2 k a) = wd (ix2 k a)) (h6 : ∀ k : Fin 64, x6 (ix2 0 k) = b (ix2 0 k))
    (h7 : ∀ k a : Fin 64, x7 (ix2 k a) = w2 (ix2 k a)) (h8 : ∀ k : Fin 64, x8 (ix2 0 k) = b2 (ix2 0 k)) :
    k0_pay1 (k0_pay2 x0 x1 x2 x3 x4 x5 x6 x7) x8 (ix2 p q) = Cert.Spec.edgeOut fs fe fd ws we wd b w2 b2 (ix2 r q) := by
  rw [payload_apply, edgeOut_apply]
  simp only [h0, h1, h2, h3, h4, h5, h6, h7, h8]

variable (V : (c : Dev nD) → (b : Ref sig .tc) → Buf (Elt Ideal) ((c : Thread nD τ).loc b))

/-- Row `p` of an edge-sized window's block at point `t` is row `8000 t + p` of its array. -/
theorem rows_block0 (c : Dev nD) (t : Fin cfg0.N) (p : Fin 8000) (a : Fin 64) (r : Fin 800000) (hr : r.val = 8000 * t.val + p.val) :
    (iblk0 (F := Ideal) V c 0 t : Vec Ideal S8000x64 .f32) (ix2 p a) = (V c main_v4 : Cert.Spec.SE.Idx → EReal) (ix2 r a) := by
  obtain ⟨e0, e1, -⟩ := block_index t
  unfold iblk0
  rw [View.read_apply]
  show V c main_v4 _ = V c main_v4 _
  congr 1
  funext d
  apply Fin.ext
  match d with
  | ⟨0, _⟩ => show win0_0.index t (0 : Fin 2) * 8000 + 1 * p.val = r.val; rw [e0, hr]; omega
  | ⟨1, _⟩ => show win0_0.index t (1 : Fin 2) * 64 + 1 * a.val = a.val; rw [e1]; omega
theorem rows_block1 (c : Dev nD) (t : Fin cfg0.N) (p : Fin 8000) (a : Fin 64) (r : Fin 800000) (hr : r.val = 8000 * t.val + p.val) :
    (iblk0 (F := Ideal) V c 1 t : Vec Ideal S8000x64 .f32) (ix2 p a) = (V c main_arg2 : Cert.Spec.SE.Idx → EReal) (ix2 r a) := by
  obtain ⟨-, -, e0, e1, -⟩ := block_index t
  unfold iblk0
  rw [View.read_apply]
  show V c main_arg2 _ = V c main_arg2 _
  congr 1
  funext d
  apply Fin.ext
  match d with
  | ⟨0, _⟩ => show win0_1.index t (0 : Fin 2) * 8000 + 1 * p.val = r.val; rw [e0, hr]; omega
  | ⟨1, _⟩ => show win0_1.index t (1 : Fin 2) * 64 + 1 * a.val = a.val; rw [e1]; omega
theorem rows_block2 (c : Dev nD) (t : Fin cfg0.N) (p : Fin 8000) (a : Fin 64) (r : Fin 800000) (hr : r.val = 8000 * t.val + p.val) :
    (iblk0 (F := Ideal) V c 2 t : Vec Ideal S8000x64 .f32) (ix2 p a) = (V c main_v5 : Cert.Spec.SE.Idx → EReal) (ix2 r a) := by
  obtain ⟨-, -, -, -, e0, e1, -⟩ := block_index t
  unfold iblk0
  rw [View.read_apply]
  show V c main_v5 _ = V c main_v5 _
  congr 1
  funext d
  apply Fin.ext
  match d with
  | ⟨0, _⟩ => show win0_2.index t (0 : Fin 2) * 8000 + 1 * p.val = r.val; rw [e0, hr]; omega
  | ⟨1, _⟩ => show win0_2.index t (1 : Fin 2) * 64 + 1 * a.val = a.val; rw [e1]; omega

/-- A 64 x 64 table's block at any point is the table. -/
theorem table_block3 (c : Dev nD) (t : Fin cfg0.N) (k a : Fin 64) :
    (iblk0 (F := Ideal) V c 3 t : Vec Ideal S64x64 .f32) (ix2 k a) = (V c main_v6 : Cert.Spec.SW.Idx → EReal) (ix2 k a) := by
  obtain ⟨-, -, -, -, -, -, e0, e1, -⟩ := block_index t
  unfold iblk0
  rw [View.read_apply]
  show V c main_v6 _ = V c main_v6 _
  congr 1
  funext d
  apply Fin.ext
  match d with
  | ⟨0, _⟩ => show win0_3.index t (0 : Fin 2) * 64 + 1 * k.val = k.val; rw [e0]; omega
  | ⟨1, _⟩ => show win0_3.index t (1 : Fin 2) * 64 + 1 * a.val = a.val; rw [e1]; omega
theorem table_block4 (c : Dev nD) (t : Fin cfg0.N) (k a : Fin 64) :
    (iblk0 (F := Ideal) V c 4 t : Vec Ideal S64x64 .f32) (ix2 k a) = (V c main_v7 : Cert.Spec.SW.Idx → EReal) (ix2 k a) := by
  obtain ⟨-, -, -, -, -, -, -, -, e0, e1, -⟩ := block_index t
  unfold iblk0
  rw [View.read_apply]
  show V c main_v7 _ = V c main_v7 _
  congr 1
  funext d
  apply Fin.ext
  match d with
  | ⟨0, _⟩ => show win0_4.index t (0 : Fin 2) * 64 + 1 * k.val = k.val; rw [e0]; omega
  | ⟨1, _⟩ => show win0_4.index t (1 : Fin 2) * 64 + 1 * a.val = a.val; rw [e1]; omega
theorem table_block5 (c : Dev nD) (t : Fin cfg0.N) (k a : Fin 64) :
    (iblk0 (F := Ideal) V c 5 t : Vec Ideal S64x64 .f32) (ix2 k a) = (V c main_v8 : Cert.Spec.SW.Idx → EReal) (ix2 k a) := by
  obtain ⟨-, -, -, -, -, -, -, -, -, -, e0, e1, -⟩ := block_index t
  unfold iblk0
  rw [View.read_apply]
  show V c main_v8 _ = V c main_v8 _
  congr 1
  funext d
  apply Fin.ext
  match d with
  | ⟨0, _⟩ => show win0_5.index t (0 : Fin 2) * 64 + 1 * k.val = k.val; rw [e0]; omega
  | ⟨1, _⟩ => show win0_5.index t (1 : Fin 2) * 64 + 1 * a.val = a.val; rw [e1]; omega
theorem table_block7 (c : Dev nD) (t : Fin cfg0.N) (k a : Fin 64) :
    (iblk0 (F := Ideal) V c 7 t : Vec Ideal S64x64 .f32) (ix2 k a) = (V c main_arg5 : Cert.Spec.SW.Idx → EReal) (ix2 k a) := by
  obtain ⟨-, -, -, -, -, -, -, -, -, -, -, -, -, -, e0, e1, -⟩ := block_index t
  unfold iblk0
  rw [View.read_apply]
  show V c main_arg5 _ = V c main_arg5 _
  congr 1
  funext d
  apply Fin.ext
  match d with
  | ⟨0, _⟩ => show win0_7.index t (0 : Fin 2) * 64 + 1 * k.val = k.val; rw [e0]; omega
  | ⟨1, _⟩ => show win0_7.index t (1 : Fin 2) * 64 + 1 * a.val = a.val; rw [e1]; omega

/-- A bias row's block at any point is the row. -/
theorem bias_block6 (c : Dev nD) (t : Fin cfg0.N) (k : Fin 64) :
    (iblk0 (F := Ideal) V c 6 t : Vec Ideal S1x64 .f32) (ix2 0 k) = (V c main_v9 : Cert.Spec.SB.Idx → EReal) (ix2 0 k) := by
  obtain ⟨-, -, -, -, -, -, -, -, -, -, -, -, e0, e1, -⟩ := block_index t
  unfold iblk0
  rw [View.read_apply]
  show V c main_v9 _ = V c main_v9 _
  congr 1
  funext d
  apply Fin.ext
  match d with
  | ⟨0, _⟩ => show win0_6.index t (0 : Fin 2) * 1 + 1 * 0 = 0; rw [e0]
  | ⟨1, _⟩ => show win0_6.index t (1 : Fin 2) * 64 + 1 * k.val = k.val; rw [e1]; omega
theorem bias_block8 (c : Dev nD) (t : Fin cfg0.N) (k : Fin 64) :
    (iblk0 (F := Ideal) V c 8 t : Vec Ideal S1x64 .f32) (ix2 0 k) = (V c main_v10 : Cert.Spec.SB.Idx → EReal) (ix2 0 k) := by
  obtain ⟨-, -, -, -, -, -, -, -, -, -, -, -, -, -, -, -, e0, e1, -⟩ := block_index t
  unfold iblk0
  rw [View.read_apply]
  show V c main_v10 _ = V c main_v10 _
  congr 1
  funext d
  apply Fin.ext
  match d with
  | ⟨0, _⟩ => show win0_8.index t (0 : Fin 2) * 1 + 1 * 0 = 0; rw [e0]
  | ⟨1, _⟩ => show win0_8.index t (1 : Fin 2) * 64 + 1 * k.val = k.val; rw [e1]; omega

/-- What point `t` writes back is its block of the edge stage of the arrays as the region found them. -/
theorem written_block (c : Dev nD) (t : Fin cfg0.N) :
    (dat0 (F := Ideal) V c).flushed 9 t
      = ((cfg0.win 9).blk t).view.read (Elt Ideal)
          (Cert.Spec.edgeOut (V c main_v4) (V c main_arg2) (V c main_v5) (V c main_v6) (V c main_v7) (V c main_v8)
            (V c main_v9) (V c main_arg5) (V c main_v10)) := by
  show (cfg0.win 9).cut (grid0.coords t) ((dat0 (F := Ideal) V c).after 9 t) = _
  rw [after0_9]
  unfold out0_9
  rw [View.canon_unit_zero zero_offsets]
  simp only [View.ld_unit_zero (S := S8000x64) zero_offsets, View.ld_unit_zero (S := S64x64) zero_offsets,
    View.ld_unit_zero (S := S1x64) zero_offsets]
  funext j
  have hN : cfg0.N = 100 := N_0
  have ht : t.val < 100 := hN ▸ t.isLt
  have hj0 : (j 0).val < 8000 := (j 0).isLt
  have hj1 : (j 1).val < 64 := (j 1).isLt
  obtain ⟨-, -, -, -, -, -, -, -, -, -, -, -, -, -, -, -, -, -, e0, e1⟩ := block_index t
  have hx : (cfg0.win 9).xinj (grid0.coords t) j = ix2 (⟨(j 0).val, hj0⟩ : Fin 8000) (⟨(j 1).val, hj1⟩ : Fin 64) :=
    funext fun d => by match d with | ⟨0, _⟩ => rfl | ⟨1, _⟩ => rfl
  have he : ((cfg0.win 9).blk t).view.emb j
      = (ix2 (⟨8000 * t.val + (j 0).val, by omega⟩ : Fin 800000) (⟨(j 1).val, hj1⟩ : Fin 64) : Cert.Spec.SE.Idx) := by
    funext d
    apply Fin.ext
    match d with
    | ⟨0, _⟩ => show win0_9.index t (0 : Fin 2) * 8000 + 1 * (j 0).val = 8000 * t.val + (j 0).val; rw [e0]; omega
    | ⟨1, _⟩ => show win0_9.index t (1 : Fin 2) * 64 + 1 * (j 1).val = (j 1).val; rw [e1]; omega
  rw [View.read_apply]
  show k0_pay1 (k0_pay2 (iblk0 V c 0 t) (iblk0 V c 1 t) (iblk0 V c 2 t) (iblk0 V c 3 t) (iblk0 V c 4 t) (iblk0 V c 5 t)
        (iblk0 V c 6 t) (iblk0 V c 7 t)) (iblk0 V c 8 t) ((cfg0.win 9).xinj (grid0.coords t) j)
      = Cert.Spec.edgeOut (V c main_v4) (V c main_arg2) (V c main_v5) (V c main_v6) (V c main_v7) (V c main_v8)
          (V c main_v9) (V c main_arg5) (V c main_v10) (((cfg0.win 9).blk t).view.emb j)
  rw [hx, he]
  exact point_value (V c main_v4) (V c main_arg2) (V c main_v5) (V c main_v6) (V c main_v7) (V c main_v8)
    (V c main_v9) (V c main_arg5) (V c main_v10)
    (iblk0 V c 0 t) (iblk0 V c 1 t) (iblk0 V c 2 t) (iblk0 V c 3 t) (iblk0 V c 4 t) (iblk0 V c 5 t)
    (iblk0 V c 7 t) (iblk0 V c 6 t) (iblk0 V c 8 t) ⟨(j 0).val, hj0⟩ ⟨(j 1).val, hj1⟩ ⟨8000 * t.val + (j 0).val, by omega⟩
    (fun a => rows_block0 V c t _ a _ rfl) (fun a => rows_block1 V c t _ a _ rfl) (fun a => rows_block2 V c t _ a _ rfl)
    (fun k a => table_block3 V c t k a) (fun k a => table_block4 V c t k a) (fun k a => table_block5 V c t k a)
    (fun k => bias_block6 V c t k) (fun k a => table_block7 V c t k a) (fun k => bias_block8 V c t k)

/-- An index of the output array is in point `t`'s block iff its row is one of the block's 8000. -/
theorem mem_block (t : Fin cfg0.N) (i : S800000x64.Idx) :
    i ∈ ((cfg0.win 9).blk t).view.set
      ↔ ∀ a : Fin 2, win0_9.index t a * S8000x64.size a ≤ (i a).val ∧ (i a).val < win0_9.index t a * S8000x64.size a + S8000x64.size a := by
  show i ∈ ((View.whole main_v11).slice (win0_9.rect t)).set ↔ _
  rw [View.set_slice_whole, Rect.mem_set_unit]
  exact Iff.rfl

/-- Row `r` of the output is written by point `r / 8000`. -/
theorem rows_covered (i : S800000x64.Idx) :
    ∃ t : Fin cfg0.N, (cfg0.win 9).flush t = true ∧ i ∈ ((cfg0.win 9).blk t).view.set := by
  have hN : cfg0.N = 100 := N_0
  have hi0 : (i 0).val < 800000 := (i 0).isLt
  have hi1 : (i 1).val < 64 := (i 1).isLt
  obtain ⟨t, ht⟩ : ∃ t : Fin cfg0.N, t.val = (i 0).val / 8000 := ⟨⟨(i 0).val / 8000, by rw [hN]; omega⟩, rfl⟩
  obtain ⟨-, -, -, -, -, -, -, -, -, -, -, -, -, -, -, -, -, -, e0, e1⟩ := block_index t
  refine ⟨t, flush0_9 t, ?_⟩
  rw [mem_block]
  intro a
  match a with
  | ⟨0, _⟩ =>
    show win0_9.index t (0 : Fin 2) * 8000 ≤ (i 0).val ∧ (i 0).val < win0_9.index t (0 : Fin 2) * 8000 + 8000
    rw [e0, ht]; omega
  | ⟨1, _⟩ =>
    show win0_9.index t (1 : Fin 2) * 64 ≤ (i 1).val ∧ (i 1).val < win0_9.index t (1 : Fin 2) * 64 + 64
    rw [e1]; omega

/-- After region 0 its output array is the edge stage of the arrays at the region's entry. -/
theorem edge_arr (c : Dev nD) :
    (dat0 (F := Ideal) V c).arrAt 9 cfg0.N =
      Cert.Spec.edgeOut (V c main_v4) (V c main_arg2) (V c main_v5) (V c main_v6) (V c main_v7) (V c main_v8)
        (V c main_v9) (V c main_arg5) (V c main_v10) := by
  exact (dat0 (F := Ideal) V c).arrAt_eq_of_cover 9
    (Cert.Spec.edgeOut (V c main_v4) (V c main_arg2) (V c main_v5) (V c main_v6) (V c main_v7) (V c main_v8)
      (V c main_v9) (V c main_arg5) (V c main_v10))
    (fun t _ => written_block V c t) rows_covered

end Cert.KernelIdeal.EdgeValue

end
-- ==== Proof.KernelNode.lean ====
/-
  Region 1 (the node stage), read as a value. Grid point `t` of 10 stages rows `5000 t … 5000 t + 4999` of the node
  table and of the aggregated table and the whole of the five small operands, and writes back rows `5000 t …` of the
  output; the blocks tile the output array, so after the region it is the node stage's function of the seven arrays
  as the region found them.
-/
import proofs.«407157_j86285892976708_1_alg».proof.Proof.Gen.KernelIdeal.Frame
import proofs.«407157_j86285892976708_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.NodeValue

variable (V : (c : Dev nD) → (b : Ref sig .tc) → Buf (Elt Ideal) ((c : Thread nD τ).loc b))

/-! ## The 64-term products of the stage, read at an index

The three matrix products of the body contract the second axis of a 5000 x 64 left operand against the first axis of a
64 x 64 right operand, into a zero accumulator: entry `(p, q)` is `∑ k, l (p, k) * r (k, q)`. -/

theorem lhs_rowdot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_rowdot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_rowdot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_rowdot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product into the zero accumulator, at entry `(p, q)`: row `p` of the left operand against column `q` of the right. -/
theorem rowdot_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_rowdot_0 _ _
    | ⟨1, _⟩ => exact (lhs_rowdot_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_rowdot_0 _ _).trans hk
    | ⟨1, _⟩ => exact rhs_rowdot_1 _ _)
  rw [el, er]

/-- A transposed weight table at `(a, k)` is the table at `(k, a)`. -/
theorem transposed_apply (x : FVec Ideal S64x64 .bf16) (a k : Fin 64) :
    transpose S64x64 [1, 0] x transposes_S64x64_p1_0_S64x64 (ix2 a k) = x (ix2 k a) :=
  transpose_ix2_apply x transposes_S64x64_p1_0_S64x64 a k

/-! ## The body's result at an index -/

/-- Entry `(p, q)` of what the body stores: the hidden row of block row `p` (the positive part of the two 64-term
    products against the transposed weight tables, plus the bias row) against row `q` of the output weight table, plus
    the output bias. The changes of float format are the identity on the extended reals. -/
theorem pay_apply (x0 x1 : Vec Ideal S5000x64 .f32) (x2 x3 : Vec Ideal S64x64 .f32) (x4 : Vec Ideal S1x64 .f32)
    (x5 : Vec Ideal S64x64 .f32) (x6 : Vec Ideal S1x64 .f32)
    (p : Fin 5000) (q : Fin 64) :
    k1_pay1 (F := Ideal) x0 x1 x2 x3 x4 x5 x6 (ix2 p q)
      = (∑ k : Fin 64, max (((∑ a : Fin 64, x0 (ix2 p a) * x2 (ix2 k a)) + ∑ a : Fin 64, x1 (ix2 p a) * x3 (ix2 k a))
          + x4 (ix2 0 k)) 0 * x5 (ix2 q k)) + x6 (ix2 0 q) := by
  have hzero : Scalar.ofBits (F := Ideal) .f32 0x00000000#32 = (0 : EReal) := Ideal.ofBits_zero_f32
  unfold k1_pay1
  simp only [addf_apply, maximumf_apply, truncf_apply, broadcast_apply, shapeCast_self, rowdot_apply,
    broadcastTo_1b_ab_apply, hzero]
  have tr : ∀ (w : FVec Ideal S64x64 .f32) (a k : Fin 64),
      transpose S64x64 [1, 0] (truncf (F := Ideal) .bf16 w bitsLt_bf16_f32) transposes_S64x64_p1_0_S64x64 (ix2 a k)
        = w (ix2 k a) :=
    fun w a k => transposed_apply (truncf (F := Ideal) .bf16 w bitsLt_bf16_f32) a k
  refine congrArg (· + x6 (ix2 0 q)) (Finset.sum_congr rfl fun k _ => ?_)
  refine congrArg₂ (fun z y => max (z + x4 (ix2 0 k)) 0 * y) ?_ (tr x5 k q)
  exact congrArg₂ (· + ·) (Finset.sum_congr rfl fun a _ => congrArg (x0 (ix2 p a) * ·) (tr x2 a k))
    (Finset.sum_congr rfl fun a _ => congrArg (x1 (ix2 p a) * ·) (tr x3 a k))

/-- The same against the node stage of two arrays whose row `n` is block row `p`. -/
theorem stage_of_rows (x0 x1 : Vec Ideal S5000x64 .f32) (x2 x3 : Vec Ideal S64x64 .f32) (x4 : Vec Ideal S1x64 .f32)
    (x5 : Vec Ideal S64x64 .f32) (x6 : Vec Ideal S1x64 .f32)
    (X S : Cert.Spec.SN.Idx → EReal) (p : Fin 5000) (q : Fin 64) (n : Fin 50000)
    (h0 : ∀ a : Fin 64, x0 (ix2 p a) = X (ix2 n a)) (h1 : ∀ a : Fin 64, x1 (ix2 p a) = S (ix2 n a)) :
    k1_pay1 (F := Ideal) x0 x1 x2 x3 x4 x5 x6 (ix2 p q) = Cert.Spec.nodeOut X S x2 x3 x4 x5 x6 (ix2 n q) := by
  rw [pay_apply]
  show _ = (∑ k : Fin 64, Cert.Spec.nodeHid X S x2 x3 x4 n k * x5 (ix2 q k)) + x6 (ix2 0 q)
  unfold Cert.Spec.nodeHid
  simp only [h0, h1]

/-! ## The blocks of the region's windows -/

theorem zero_offsets : (![0, 0] : Fin 2 → Nat) = fun _ => 0 := funext fun a => by fin_cases a <;> rfl

/-- The printed index maps over the ten points: the two row windows and the output window are at block `(t, 0)`, the
    five small windows at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Block row `p` of the node table's block at point `t` is row `5000 t + p` of the table. -/
theorem rows_0 (c : Dev nD) (t : Fin cfg1.N) (p : Fin 5000) (a : Fin 64) (n : Fin 50000) (hn : n.val = 5000 * t.val + p.val) :
    (iblk1 V c 0 t : Vec Ideal S5000x64 .f32) (ix2 p a) = (V c main_arg0 : Cert.Spec.SN.Idx → EReal) (ix2 n a) := by
  obtain ⟨e0, e1, -⟩ := index_facts t
  show V c main_arg0 (((cfg1.win 0).blk t).view.emb (ix2 p a)) = V c main_arg0 (ix2 n a)
  refine congrArg _ (funext fun b => Fin.ext ?_)
  match b with
  | ⟨0, _⟩ => show win1_0.index t (0 : Fin 2) * 5000 + 1 * p.val = n.val; rw [e0, hn]; omega
  | ⟨1, _⟩ => show win1_0.index t (1 : Fin 2) * 64 + 1 * a.val = a.val; rw [e1]; omega

/-- The same for the aggregated table. -/
theorem rows_1 (c : Dev nD) (t : Fin cfg1.N) (p : Fin 5000) (a : Fin 64) (n : Fin 50000) (hn : n.val = 5000 * t.val + p.val) :
    (iblk1 V c 1 t : Vec Ideal S5000x64 .f32) (ix2 p a) = (V c main_v15 : Cert.Spec.SN.Idx → EReal) (ix2 n a) := by
  obtain ⟨-, -, e0, e1, -⟩ := index_facts t
  show V c main_v15 (((cfg1.win 1).blk t).view.emb (ix2 p a)) = V c main_v15 (ix2 n a)
  refine congrArg _ (funext fun b => Fin.ext ?_)
  match b with
  | ⟨0, _⟩ => show win1_1.index t (0 : Fin 2) * 5000 + 1 * p.val = n.val; rw [e0, hn]; omega
  | ⟨1, _⟩ => show win1_1.index t (1 : Fin 2) * 64 + 1 * a.val = a.val; rw [e1]; omega

/-- Each small window's block, at every point, is its whole array. -/
theorem whole_2 (c : Dev nD) (t : Fin cfg1.N) : (iblk1 V c 2 t : Vec Ideal S64x64 .f32) = V c main_v16 := by
  obtain ⟨-, -, -, -, e0, e1, -⟩ := index_facts t
  funext y
  show V c main_v16 (((cfg1.win 2).blk t).view.emb y) = V c main_v16 y
  refine congrArg _ (funext fun b => Fin.ext ?_)
  match b with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega
theorem whole_3 (c : Dev nD) (t : Fin cfg1.N) : (iblk1 V c 3 t : Vec Ideal S64x64 .f32) = V c main_v17 := by
  obtain ⟨-, -, -, -, -, -, e0, e1, -⟩ := index_facts t
  funext y
  show V c main_v17 (((cfg1.win 3).blk t).view.emb y) = V c main_v17 y
  refine congrArg _ (funext fun b => Fin.ext ?_)
  match b with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega
theorem whole_4 (c : Dev nD) (t : Fin cfg1.N) : (iblk1 V c 4 t : Vec Ideal S1x64 .f32) = V c main_v18 := by
  obtain ⟨-, -, -, -, -, -, -, -, e0, e1, -⟩ := index_facts t
  funext y
  show V c main_v18 (((cfg1.win 4).blk t).view.emb y) = V c main_v18 y
  refine congrArg _ (funext fun b => Fin.ext ?_)
  match b with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega
theorem whole_5 (c : Dev nD) (t : Fin cfg1.N) : (iblk1 V c 5 t : Vec Ideal S64x64 .f32) = V c main_arg9 := by
  obtain ⟨-, -, -, -, -, -, -, -, -, -, e0, e1, -⟩ := index_facts t
  funext y
  show V c main_arg9 (((cfg1.win 5).blk t).view.emb y) = V c main_arg9 y
  refine congrArg _ (funext fun b => Fin.ext ?_)
  match b with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega
theorem whole_6 (c : Dev nD) (t : Fin cfg1.N) : (iblk1 V c 6 t : Vec Ideal S1x64 .f32) = V c main_v19 := by
  obtain ⟨-, -, -, -, -, -, -, -, -, -, -, -, e0, e1, -⟩ := index_facts t
  funext y
  show V c main_v19 (((cfg1.win 6).blk t).view.emb y) = V c main_v19 y
  refine congrArg _ (funext fun b => Fin.ext ?_)
  match b with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- What point `t` writes back is rows `5000 t … 5000 t + 4999` of the node stage of the seven arrays. -/
theorem flushed_eq (c : Dev nD) (t : Fin cfg1.N) :
    (dat1 (F := Ideal) V c).flushed 7 t = ((cfg1.win 7).blk t).view.read (Elt Ideal)
      (Cert.Spec.nodeOut (V c main_arg0) (V c main_v15) (V c main_v16) (V c main_v17) (V c main_v18) (V c main_arg9)
        (V c main_v19)) := by
  show (cfg1.win 7).cut (grid1.coords t) ((dat1 V c).after 7 t) = _
  rw [after1_7]
  unfold out1_7
  rw [View.canon_unit_zero zero_offsets]
  simp only [View.ld_unit_zero (S := S5000x64) zero_offsets, View.ld_unit_zero (S := S64x64) zero_offsets,
    View.ld_unit_zero (S := S1x64) zero_offsets]
  rw [whole_2 V c t, whole_3 V c t, whole_4 V c t, whole_5 V c t, whole_6 V c t]
  have ht : t.val < 10 := by have h : t.val < grid1.N := t.isLt; have hN : grid1.N = 10 := N_1; omega
  obtain ⟨-, -, -, -, -, -, -, -, -, -, -, -, -, -, e0, e1⟩ := index_facts t
  refine funext fun (j : S5000x64.Idx) => ?_
  obtain ⟨p, q, rfl⟩ : ∃ (p : Fin 5000) (q : Fin 64), j = ix2 p q := ⟨j 0, j 1, eq_ix2 j⟩
  have hlt : 5000 * t.val + p.val < 50000 := by have := p.isLt; omega
  refine (stage_of_rows (iblk1 V c 0 t) (iblk1 V c 1 t) (V c main_v16) (V c main_v17) (V c main_v18) (V c main_arg9)
    (V c main_v19) (V c main_arg0) (V c main_v15) p q ⟨5000 * t.val + p.val, hlt⟩
    (fun a => rows_0 V c t p a ⟨5000 * t.val + p.val, hlt⟩ rfl) (fun a => rows_1 V c t p a ⟨5000 * t.val + p.val, hlt⟩ rfl)).trans ?_
  show Cert.Spec.nodeOut (V c main_arg0) (V c main_v15) (V c main_v16) (V c main_v17) (V c main_v18) (V c main_arg9)
      (V c main_v19) (ix2 ⟨5000 * t.val + p.val, hlt⟩ q)
    = Cert.Spec.nodeOut (V c main_arg0) (V c main_v15) (V c main_v16) (V c main_v17) (V c main_v18) (V c main_arg9)
      (V c main_v19) (((cfg1.win 7).blk t).view.emb (ix2 p q))
  refine congrArg _ (funext fun b => Fin.ext ?_)
  match b with
  | ⟨0, _⟩ => show 5000 * t.val + p.val = win1_7.index t (0 : Fin 2) * 5000 + 1 * p.val; rw [e0]; omega
  | ⟨1, _⟩ => show q.val = win1_7.index t (1 : Fin 2) * 64 + 1 * q.val; rw [e1]; omega

/-! ## The blocks tile the output array -/

/-- An index of the output array is in point `t`'s block iff each coordinate is in the block's range on its axis. -/
theorem mem_block (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v20).slice (win1_7.rect t)).set ↔ _
  rw [View.set_slice_whole, Rect.mem_set_unit]
  exact Iff.rfl

/-- Row `r` of the output is written back by point `r / 5000`. -/
theorem covered (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, -, -, -, -, -, -, -, -, e0, e1⟩ := index_facts t
  refine ⟨t, flush1_7 t, ?_⟩
  rw [mem_block]
  intro a
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 64 ≤ (i 1).val ∧ (i 1).val < win1_7.index t (1 : Fin 2) * 64 + 64; rw [e1]; omega

/-- After region 1 its output array is the node stage of the arrays at the region's entry. -/
theorem node_arr (c : Dev nD) :
    (dat1 (F := Ideal) V c).arrAt 7 cfg1.N =
      Cert.Spec.nodeOut (V c main_arg0) (V c main_v15) (V c main_v16) (V c main_v17) (V c main_v18) (V c main_arg9)
        (V c main_v19) :=
  (dat1 (F := Ideal) V c).arrAt_eq_of_cover 7
    (Cert.Spec.nodeOut (V c main_arg0) (V c main_v15) (V c main_v16) (V c main_v17) (V c main_v18) (V c main_arg9)
      (V c main_v19))
    (fun t _ => flushed_eq V c t) covered

end Cert.KernelIdeal.NodeValue

end
-- ==== Proof.KernelHost.lean ====
/-
  The idealized kernel's result as a function of its arguments. Between the launch and the first region the host
  gathers the source and destination rows of the node table (masking rows whose index is outside the table),
  cuts the first weight table into three 64-column blocks and lays the biases out as rows; between the regions it
  sums the edge stage's rows into their source nodes, adds the node table, and cuts the third weight table in two.
  Reading each stretch's results and each region's output array gives the whole layer.
-/
import proofs.«407157_j86285892976708_1_alg».proof.Proof.Gen.KernelIdeal.Frame
import proofs.«407157_j86285892976708_1_alg».proof.Proof.KernelEdge
import proofs.«407157_j86285892976708_1_alg».proof.Proof.KernelNode
import proofs.«407157_j86285892976708_1_alg».proof.Proof.Spec
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat Cfg Window)
open Cert.KernelIdeal Cert.KernelIdeal.Gen

namespace Cert.KernelIdeal.HostValue

variable (m : (ℓ : Loc nD τ sig) → Buf (Elt Ideal) ℓ) (ρ : Dev nD → PrngReg)

/-! ## What each host stretch writes, and so what it leaves as it found it -/

/-- The buffers the first stretch writes: the two rows of the index pairs, each as a row and as a vector. -/
abbrev L0 : List (Ref sig .tc) := [main_v0, main_v1, main_v2, main_v3]
/-- The buffers the source gather writes. -/
abbrev L01 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
/-- The buffers the destination gather writes. -/
abbrev L02 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
/-- The buffers the fourth stretch writes: three weight blocks and two bias rows. -/
abbrev L03 : List (Ref sig .tc) := [main_v6, main_v7, main_v8, main_v9, main_v10]
/-- The buffers the stretch between the regions writes. -/
abbrev L1 : List (Ref sig .tc) := [main_cst, main_v12, main_v13, main_v14, main_v15, main_v16, main_v17, main_v18, main_v19]

theorem writes0 : (hostOps0 : List (HloOp τ sig (Elt Ideal))).Forall fun op => op.writes ⊆ (L0.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem writes01 : (hostOps0_1 : List (HloOp τ sig (Elt Ideal))).Forall fun op => op.writes ⊆ (L01.map (Proc.devRef (τ := τ) .tc)).toFinset := by
  simp only [hostOps0_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem writes02 : (hostOps0_2 : List (HloOp τ sig (Elt Ideal))).Forall fun op => op.writes ⊆ (L02.map (Proc.devRef (τ := τ) .tc)).toFinset := by
  simp only [hostOps0_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem writes03 : (hostOps0_3 : List (HloOp τ sig (Elt Ideal))).Forall fun op => op.writes ⊆ (L03.map (Proc.devRef (τ := τ) .tc)).toFinset := by
  simp only [hostOps0_3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem writes1 : (hostOps1 : List (HloOp τ sig (Elt Ideal))).Forall fun op => op.writes ⊆ (L1.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- Contents moved to a buffer's own type and back are the contents. -/
theorem ofBuf_toBuf {Val : EltTy → Type} {T : BufTy} (x : StableHlo.TRef sig T) (v : T.Contents Val) : x.ofBuf (x.toBuf v) = v := by
  unfold StableHlo.TRef.ofBuf StableHlo.TRef.toBuf; rw [cast_cast, cast_eq]

/-! At a literal buffer the move is the identity. -/
theorem toBuf_v4 (h1 h2 h3) (v : (⟨S800000x64, .f32⟩ : BufTy).Contents (Elt Ideal)) :
    ((StableHlo.TRef.of main_v4 h1 h2 h3 : StableHlo.TRef sig ⟨S800000x64, .f32⟩).toBuf v : (⟨S800000x64, .f32⟩ : BufTy).Contents (Elt Ideal)) = v := rfl
theorem toBuf_v5 (h1 h2 h3) (v : (⟨S800000x64, .f32⟩ : BufTy).Contents (Elt Ideal)) :
    ((StableHlo.TRef.of main_v5 h1 h2 h3 : StableHlo.TRef sig ⟨S800000x64, .f32⟩).toBuf v : (⟨S800000x64, .f32⟩ : BufTy).Contents (Elt Ideal)) = v := rfl
theorem ofBuf_v1 (h1 h2 h3) (v : (main_v1 : Ref sig .tc).ty.Contents (Elt Ideal)) :
    (StableHlo.TRef.of main_v1 h1 h2 h3 : StableHlo.TRef sig ⟨S800000, .i32⟩).ofBuf v = (v : (⟨S800000, .i32⟩ : BufTy).Contents (Elt Ideal)) := rfl
theorem ofBuf_v3 (h1 h2 h3) (v : (main_v3 : Ref sig .tc).ty.Contents (Elt Ideal)) :
    (StableHlo.TRef.of main_v3 h1 h2 h3 : StableHlo.TRef sig ⟨S800000, .i32⟩).ofBuf v = (v : (⟨S800000, .i32⟩ : BufTy).Contents (Elt Ideal)) := rfl
theorem ofBuf_arg0 (h1 h2 h3) (v : (main_arg0 : Ref sig .tc).ty.Contents (Elt Ideal)) :
    (StableHlo.TRef.of main_arg0 h1 h2 h3 : StableHlo.TRef sig ⟨S50000x64, .f32⟩).ofBuf v = (v : (⟨S50000x64, .f32⟩ : BufTy).Contents (Elt Ideal)) := rfl

/-! ## The program's own spelling of the masked gather is the specification's -/

/-- The program's gather and scatter records are the specification's. -/
theorem gather_eq_gd : gather_S50000x64_S800000x1_S800000x64_1_0_n_n_0_1_164 = Cert.Spec.gd := rfl
theorem scatter_eq_sd : scatter_S50000x64_S800000x1_S800000x64_1_0_0_1 = Cert.Spec.sd := rfl

/-- The operations one gather call applies to the table and an index vector are `Cert.Spec.rowsMasked`. -/
theorem raw_eq_rowsMasked (x : FVec Ideal S50000x64 .f32) (idx : IVec S800000 32) :
    select (broadcastInDim S800000x64 ![0] bcast_S800000_S800000x64_0 (Host.reduce IntOp.andi (andi (cmpi .sge (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)) (broadcastInDim S800000x1 ![] bcast_S_S800000x1 (constantI S_ 32 0#32))) (cmpi .sle (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_)) (Host.gather gather_S50000x64_S800000x1_S800000x64_1_0_n_n_0_1_164 x (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx))) (broadcastInDim S800000x64 ![] bcast_S_S800000x64 (constant (F := Ideal) S_ .f32 0x7FC00000#32)) = Cert.Spec.rowsMasked x idx := by
  unfold Cert.Spec.rowsMasked Cert.Spec.wrapped
  rw [gather_eq_gd]

section Stretch

variable (V : Valuation τ sig (Elt Ideal))

theorem keep0 {r : Ref sig .tc} (h : r ∉ L0) : StableHlo.after hostOps0 V (Proc.devRef .tc r) = V (Proc.devRef .tc r) :=
  StableHlo.after_of_writes_sub hostOps0 V writes0 h
theorem keep01 {r : Ref sig .tc} (h : r ∉ L01) : StableHlo.after hostOps0_1 V (Proc.devRef .tc r) = V (Proc.devRef .tc r) :=
  StableHlo.after_of_writes_sub hostOps0_1 V writes01 h
theorem keep02 {r : Ref sig .tc} (h : r ∉ L02) : StableHlo.after hostOps0_2 V (Proc.devRef .tc r) = V (Proc.devRef .tc r) :=
  StableHlo.after_of_writes_sub hostOps0_2 V writes02 h
theorem keep03 {r : Ref sig .tc} (h : r ∉ L03) : StableHlo.after hostOps0_3 V (Proc.devRef .tc r) = V (Proc.devRef .tc r) :=
  StableHlo.after_of_writes_sub hostOps0_3 V writes03 h
theorem keep1 {r : Ref sig .tc} (h : r ∉ L1) : StableHlo.after hostOps1 V (Proc.devRef .tc r) = V (Proc.devRef .tc r) :=
  StableHlo.after_of_writes_sub hostOps1 V writes1 h

/-! ## What each host stretch computes, from any contents -/

/-- The first stretch leaves the source nodes in `main_v1`. -/
theorem h0_v1 : (StableHlo.after hostOps0 V (Proc.devRef .tc main_v1) : IVec S800000 32) =
    Cert.Spec.srcOf (V (Proc.devRef .tc main_arg1)) := by
  dsimp only [hostOps0]; after_results; rfl
/-- The first stretch leaves the destination nodes in `main_v3`. -/
theorem h0_v3 : (StableHlo.after hostOps0 V (Proc.devRef .tc main_v3) : IVec S800000 32) =
    Cert.Spec.dstOf (V (Proc.devRef .tc main_arg1)) := by
  dsimp only [hostOps0]; after_results; rfl

/-- A gather stretch leaves the masked rows of the node table at its index vector in its result buffer. -/
theorem h01_v4_raw : (StableHlo.after hostOps0_1 V (Proc.devRef .tc main_v4) : FVec Ideal S800000x64 .f32) =
    select (broadcastInDim S800000x64 ![0] bcast_S800000_S800000x64_0 (Host.reduce IntOp.andi (andi (cmpi .sge (broadcastInDim S800000x1 ![0] bcast_S800000_S800000x1_0 (select (cmpi .slt (V (Proc.devRef .tc main_v1)) (broadcastInDim S800000 ![] bcast_S_S800000 (constantI S_ 32 0#32))) (addi (V (Proc.devRef .tc main_v1)) (broadcastInDim S800000 ![] bcast_S_S800000 (constantI S_ 32 50000#32))) (V (Proc.devRef .tc main_v1)))) (broadcastInDim S800000x1 ![] bcast_S_S800000x1 (constantI S_ 32 0#32))) (cmpi .sle (broadcastInDim S800000x1 ![0] bcast_S800000_S800000x1_0 (select (cmpi .slt (V (Proc.devRef .tc main_v1)) (broadcastInDim S800000 ![] bcast_S_S800000 (constantI S_ 32 0#32))) (addi (V (Proc.devRef .tc main_v1)) (broadcastInDim S800000 ![] bcast_S_S800000 (constantI S_ 32 50000#32))) (V (Proc.devRef .tc main_v1)))) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_)) (Host.gather gather_S50000x64_S800000x1_S800000x64_1_0_n_n_0_1_164 (V (Proc.devRef .tc main_arg0)) (broadcastInDim S800000x1 ![0] bcast_S800000_S800000x1_0 (select (cmpi .slt (V (Proc.devRef .tc main_v1)) (broadcastInDim S800000 ![] bcast_S_S800000 (constantI S_ 32 0#32))) (addi (V (Proc.devRef .tc main_v1)) (broadcastInDim S800000 ![] bcast_S_S800000 (constantI S_ 32 50000#32))) (V (Proc.devRef .tc main_v1))))) (broadcastInDim S800000x64 ![] bcast_S_S800000x64 (constant (F := Ideal) S_ .f32 0x7FC00000#32)) := by
  dsimp only [hostOps0_1]; after_results_simp
  simp only [ofBuf_toBuf, toBuf_v4, ofBuf_v1, ofBuf_arg0]
theorem h02_v5_raw : (StableHlo.after hostOps0_2 V (Proc.devRef .tc main_v5) : FVec Ideal S800000x64 .f32) =
    select (broadcastInDim S800000x64 ![0] bcast_S800000_S800000x64_0 (Host.reduce IntOp.andi (andi (cmpi .sge (broadcastInDim S800000x1 ![0] bcast_S800000_S800000x1_0 (select (cmpi .slt (V (Proc.devRef .tc main_v3)) (broadcastInDim S800000 ![] bcast_S_S800000 (constantI S_ 32 0#32))) (addi (V (Proc.devRef .tc main_v3)) (broadcastInDim S800000 ![] bcast_S_S800000 (constantI S_ 32 50000#32))) (V (Proc.devRef .tc main_v3)))) (broadcastInDim S800000x1 ![] bcast_S_S800000x1 (constantI S_ 32 0#32))) (cmpi .sle (broadcastInDim S800000x1 ![0] bcast_S800000_S800000x1_0 (select (cmpi .slt (V (Proc.devRef .tc main_v3)) (broadcastInDim S800000 ![] bcast_S_S800000 (constantI S_ 32 0#32))) (addi (V (Proc.devRef .tc main_v3)) (broadcastInDim S800000 ![] bcast_S_S800000 (constantI S_ 32 50000#32))) (V (Proc.devRef .tc main_v3)))) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_)) (Host.gather gather_S50000x64_S800000x1_S800000x64_1_0_n_n_0_1_164 (V (Proc.devRef .tc main_arg0)) (broadcastInDim S800000x1 ![0] bcast_S800000_S800000x1_0 (select (cmpi .slt (V (Proc.devRef .tc main_v3)) (broadcastInDim S800000 ![] bcast_S_S800000 (constantI S_ 32 0#32))) (addi (V (Proc.devRef .tc main_v3)) (broadcastInDim S800000 ![] bcast_S_S800000 (constantI S_ 32 50000#32))) (V (Proc.devRef .tc main_v3))))) (broadcastInDim S800000x64 ![] bcast_S_S800000x64 (constant (F := Ideal) S_ .f32 0x7FC00000#32)) := by
  dsimp only [hostOps0_2]; after_results_simp
  simp only [ofBuf_toBuf, toBuf_v5, ofBuf_v3, ofBuf_arg0]
theorem h01_v4 : (StableHlo.after hostOps0_1 V (Proc.devRef .tc main_v4) : FVec Ideal S800000x64 .f32) =
    Cert.Spec.rowsMasked (V (Proc.devRef .tc main_arg0)) (V (Proc.devRef .tc main_v1)) :=
  (h01_v4_raw V).trans (raw_eq_rowsMasked (V (Proc.devRef .tc main_arg0)) (V (Proc.devRef .tc main_v1)))
theorem h02_v5 : (StableHlo.after hostOps0_2 V (Proc.devRef .tc main_v5) : FVec Ideal S800000x64 .f32) =
    Cert.Spec.rowsMasked (V (Proc.devRef .tc main_arg0)) (V (Proc.devRef .tc main_v3)) :=
  (h02_v5_raw V).trans (raw_eq_rowsMasked (V (Proc.devRef .tc main_arg0)) (V (Proc.devRef .tc main_v3)))

/-- The fourth stretch cuts the first weight table into its three blocks and lays two biases out as rows. -/
theorem h03_v6 : (StableHlo.after hostOps0_3 V (Proc.devRef .tc main_v6) : FVec Ideal S64x64 .f32) =
    extractStridedSlice Cert.Spec.SW ![0, 0] (V (Proc.devRef .tc main_arg3)) Cert.Spec.sl_W1a := by
  dsimp only [hostOps0_3]; after_results <;> rfl
theorem h03_v7 : (StableHlo.after hostOps0_3 V (Proc.devRef .tc main_v7) : FVec Ideal S64x64 .f32) =
    extractStridedSlice Cert.Spec.SW ![0, 64] (V (Proc.devRef .tc main_arg3)) Cert.Spec.sl_W1b := by
  dsimp only [hostOps0_3]; after_results <;> rfl
theorem h03_v8 : (StableHlo.after hostOps0_3 V (Proc.devRef .tc main_v8) : FVec Ideal S64x64 .f32) =
    extractStridedSlice Cert.Spec.SW ![0, 128] (V (Proc.devRef .tc main_arg3)) Cert.Spec.sl_W1c := by
  dsimp only [hostOps0_3]; after_results <;> rfl
theorem h03_v9 : (StableHlo.after hostOps0_3 V (Proc.devRef .tc main_v9) : FVec Ideal S1x64 .f32) =
    shapeCast Cert.Spec.SB (V (Proc.devRef .tc main_arg4)) Cert.Spec.sc_V := by
  dsimp only [hostOps0_3]; after_results <;> rfl
theorem h03_v10 : (StableHlo.after hostOps0_3 V (Proc.devRef .tc main_v10) : FVec Ideal S1x64 .f32) =
    shapeCast Cert.Spec.SB (V (Proc.devRef .tc main_arg6)) Cert.Spec.sc_V := by
  dsimp only [hostOps0_3]; after_results <;> rfl

/-- The stretch between the regions sums the edge stage's rows into their source nodes and adds the node table,
    cuts the third weight table in two and lays two biases out as rows. -/
theorem h1_v15 : (StableHlo.after hostOps1 V (Proc.devRef .tc main_v15) : FVec Ideal S50000x64 .f32) =
    addf (V (Proc.devRef .tc main_arg0))
      (Host.scatterAdd Cert.Spec.sd (broadcastInDim Cert.Spec.SN ![] Cert.Spec.bc_0N (constant (F := Ideal) Cert.Spec.S0 .f32 0x00000000#32))
        (broadcastInDim Cert.Spec.SI1 ![0] Cert.Spec.bc_II1 (V (Proc.devRef .tc main_v1))) (V (Proc.devRef .tc main_v11))) := by
  dsimp only [hostOps1]; after_results <;> rfl
theorem h1_v16 : (StableHlo.after hostOps1 V (Proc.devRef .tc main_v16) : FVec Ideal S64x64 .f32) =
    extractStridedSlice Cert.Spec.SW ![0, 0] (V (Proc.devRef .tc main_arg7)) Cert.Spec.sl_W3a := by
  dsimp only [hostOps1]; after_results <;> rfl
theorem h1_v17 : (StableHlo.after hostOps1 V (Proc.devRef .tc main_v17) : FVec Ideal S64x64 .f32) =
    extractStridedSlice Cert.Spec.SW ![0, 64] (V (Proc.devRef .tc main_arg7)) Cert.Spec.sl_W3b := by
  dsimp only [hostOps1]; after_results <;> rfl
theorem h1_v18 : (StableHlo.after hostOps1 V (Proc.devRef .tc main_v18) : FVec Ideal S1x64 .f32) =
    shapeCast Cert.Spec.SB (V (Proc.devRef .tc main_arg8)) Cert.Spec.sc_V := by
  dsimp only [hostOps1]; after_results <;> rfl
theorem h1_v19 : (StableHlo.after hostOps1 V (Proc.devRef .tc main_v19) : FVec Ideal S1x64 .f32) =
    shapeCast Cert.Spec.SB (V (Proc.devRef .tc main_arg10)) Cert.Spec.sc_V := by
  dsimp only [hostOps1]; after_results <;> rfl

end Stretch

/-! ## The run's boundaries, buffer by buffer -/

section Run

variable (c : Dev nD)

/-- A buffer no stretch before region 0 writes holds, up to any of the first four boundaries, what it held at launch. -/
theorem W1_launch {r : Ref sig .tc} (h0 : r ∉ L0) :
    W1 (F := Ideal) m ρ c (Proc.devRef .tc r) = m ((c.tc : Thread nD τ).loc r) :=
  keep0 (W0 m ρ c) h0
theorem W2_launch {r : Ref sig .tc} (h0 : r ∉ L0) (h1 : r ∉ L01) :
    W2 (F := Ideal) m ρ c (Proc.devRef .tc r) = m ((c.tc : Thread nD τ).loc r) :=
  (keep01 (W1 m ρ c) h1).trans (W1_launch m ρ c h0)
theorem W3_launch {r : Ref sig .tc} (h0 : r ∉ L0) (h1 : r ∉ L01) (h2 : r ∉ L02) :
    W3 (F := Ideal) m ρ c (Proc.devRef .tc r) = m ((c.tc : Thread nD τ).loc r) :=
  (keep02 (W2 m ρ c) h2).trans (W2_launch m ρ c h0 h1)
theorem W4_launch {r : Ref sig .tc} (h0 : r ∉ L0) (h1 : r ∉ L01) (h2 : r ∉ L02) (h3 : r ∉ L03) :
    W4 (F := Ideal) m ρ c (Proc.devRef .tc r) = m ((c.tc : Thread nD τ).loc r) :=
  (keep03 (W3 m ρ c) h3).trans (W3_launch m ρ c h0 h1 h2)

/-- The source and destination nodes, once cut out of the index pairs, stay in their buffers. -/
theorem W1_v1 : (W1 (F := Ideal) m ρ c (Proc.devRef .tc main_v1) : IVec S800000 32) = (Cert.Spec.srcOf (m ((c.tc : Thread nD τ).loc main_arg1))) := h0_v1 (W0 m ρ c)
theorem W1_v3 : (W1 (F := Ideal) m ρ c (Proc.devRef .tc main_v3) : IVec S800000 32) = (Cert.Spec.dstOf (m ((c.tc : Thread nD τ).loc main_arg1))) := h0_v3 (W0 m ρ c)
theorem W2_v3 : (W2 (F := Ideal) m ρ c (Proc.devRef .tc main_v3) : IVec S800000 32) = (Cert.Spec.dstOf (m ((c.tc : Thread nD τ).loc main_arg1))) :=
  (keep01 (W1 m ρ c) (r := main_v3) (by decide)).trans (W1_v3 m ρ c)
theorem W4_v1 : (W4 (F := Ideal) m ρ c (Proc.devRef .tc main_v1) : IVec S800000 32) = (Cert.Spec.srcOf (m ((c.tc : Thread nD τ).loc main_arg1))) :=
  (keep03 (W3 m ρ c) (r := main_v1) (by decide)).trans ((keep02 (W2 m ρ c) (r := main_v1) (by decide)).trans ((keep01 (W1 m ρ c) (r := main_v1) (by decide)).trans (W1_v1 m ρ c)))

/-- The gathered source rows. -/
theorem W2_v4 : (W2 (F := Ideal) m ρ c (Proc.devRef .tc main_v4) : FVec Ideal S800000x64 .f32) = (Cert.Spec.rowsMasked (m ((c.tc : Thread nD τ).loc main_arg0)) (Cert.Spec.srcOf (m ((c.tc : Thread nD τ).loc main_arg1)))) :=
  (h01_v4 (W1 m ρ c)).trans (congrArg₂ Cert.Spec.rowsMasked (W1_launch m ρ c (r := main_arg0) (by decide)) (W1_v1 m ρ c))
/-- The gathered destination rows. -/
theorem W3_v5 : (W3 (F := Ideal) m ρ c (Proc.devRef .tc main_v5) : FVec Ideal S800000x64 .f32) = (Cert.Spec.rowsMasked (m ((c.tc : Thread nD τ).loc main_arg0)) (Cert.Spec.dstOf (m ((c.tc : Thread nD τ).loc main_arg1)))) :=
  (h02_v5 (W2 m ρ c)).trans (congrArg₂ Cert.Spec.rowsMasked (W2_launch m ρ c (r := main_arg0) (by decide) (by decide)) (W2_v3 m ρ c))

/-! ### Region 0's entry -/

theorem V4_v4 : (V4 (F := Ideal) m ρ c main_v4 : FVec Ideal S800000x64 .f32) = (Cert.Spec.rowsMasked (m ((c.tc : Thread nD τ).loc main_arg0)) (Cert.Spec.srcOf (m ((c.tc : Thread nD τ).loc main_arg1)))) :=
  (keep03 (W3 m ρ c) (r := main_v4) (by decide)).trans ((keep02 (W2 m ρ c) (r := main_v4) (by decide)).trans (W2_v4 m ρ c))
theorem V4_v5 : (V4 (F := Ideal) m ρ c main_v5 : FVec Ideal S800000x64 .f32) = (Cert.Spec.rowsMasked (m ((c.tc : Thread nD τ).loc main_arg0)) (Cert.Spec.dstOf (m ((c.tc : Thread nD τ).loc main_arg1)))) :=
  (keep03 (W3 m ρ c) (r := main_v5) (by decide)).trans (W3_v5 m ρ c)
theorem V4_arg2 : (V4 (F := Ideal) m ρ c main_arg2 : FVec Ideal S800000x64 .f32) = (m ((c.tc : Thread nD τ).loc main_arg2)) :=
  W4_launch m ρ c (r := main_arg2) (by decide) (by decide) (by decide) (by decide)
theorem V4_arg5 : (V4 (F := Ideal) m ρ c main_arg5 : FVec Ideal S64x64 .f32) = (m ((c.tc : Thread nD τ).loc main_arg5)) :=
  W4_launch m ρ c (r := main_arg5) (by decide) (by decide) (by decide) (by decide)
theorem V4_v6 : (V4 (F := Ideal) m ρ c main_v6 : FVec Ideal S64x64 .f32) = extractStridedSlice Cert.Spec.SW ![0, 0] (m ((c.tc : Thread nD τ).loc main_arg3)) Cert.Spec.sl_W1a :=
  (h03_v6 (W3 m ρ c)).trans (congrArg (fun w => extractStridedSlice Cert.Spec.SW ![0, 0] w Cert.Spec.sl_W1a) (W3_launch m ρ c (r := main_arg3) (by decide) (by decide) (by decide)))
theorem V4_v7 : (V4 (F := Ideal) m ρ c main_v7 : FVec Ideal S64x64 .f32) = extractStridedSlice Cert.Spec.SW ![0, 64] (m ((c.tc : Thread nD τ).loc main_arg3)) Cert.Spec.sl_W1b :=
  (h03_v7 (W3 m ρ c)).trans (congrArg (fun w => extractStridedSlice Cert.Spec.SW ![0, 64] w Cert.Spec.sl_W1b) (W3_launch m ρ c (r := main_arg3) (by decide) (by decide) (by decide)))
theorem V4_v8 : (V4 (F := Ideal) m ρ c main_v8 : FVec Ideal S64x64 .f32) = extractStridedSlice Cert.Spec.SW ![0, 128] (m ((c.tc : Thread nD τ).loc main_arg3)) Cert.Spec.sl_W1c :=
  (h03_v8 (W3 m ρ c)).trans (congrArg (fun w => extractStridedSlice Cert.Spec.SW ![0, 128] w Cert.Spec.sl_W1c) (W3_launch m ρ c (r := main_arg3) (by decide) (by decide) (by decide)))
theorem V4_v9 : (V4 (F := Ideal) m ρ c main_v9 : FVec Ideal S1x64 .f32) = shapeCast Cert.Spec.SB (m ((c.tc : Thread nD τ).loc main_arg4)) Cert.Spec.sc_V :=
  (h03_v9 (W3 m ρ c)).trans (congrArg (fun b => shapeCast Cert.Spec.SB b Cert.Spec.sc_V) (W3_launch m ρ c (r := main_arg4) (by decide) (by decide) (by decide)))
theorem V4_v10 : (V4 (F := Ideal) m ρ c main_v10 : FVec Ideal S1x64 .f32) = shapeCast Cert.Spec.SB (m ((c.tc : Thread nD τ).loc main_arg6)) Cert.Spec.sc_V :=
  (h03_v10 (W3 m ρ c)).trans (congrArg (fun b => shapeCast Cert.Spec.SB b Cert.Spec.sc_V) (W3_launch m ρ c (r := main_arg6) (by decide) (by decide) (by decide)))

/-! ### Region 0's exit -/

/-- Region 0 leaves the edge stage of the launch contents in its output array. -/
theorem W5_v11 : (W5 (F := Ideal) m ρ c (Proc.devRef .tc main_v11) : FVec Ideal S800000x64 .f32) = (Cert.Spec.edgeOut (Cert.Spec.rowsMasked (m ((c.tc : Thread nD τ).loc main_arg0)) (Cert.Spec.srcOf (m ((c.tc : Thread nD τ).loc main_arg1)))) (m ((c.tc : Thread nD τ).loc main_arg2)) (Cert.Spec.rowsMasked (m ((c.tc : Thread nD τ).loc main_arg0)) (Cert.Spec.dstOf (m ((c.tc : Thread nD τ).loc main_arg1)))) (extractStridedSlice Cert.Spec.SW ![0, 0] (m ((c.tc : Thread nD τ).loc main_arg3)) Cert.Spec.sl_W1a) (extractStridedSlice Cert.Spec.SW ![0, 64] (m ((c.tc : Thread nD τ).loc main_arg3)) Cert.Spec.sl_W1b) (extractStridedSlice Cert.Spec.SW ![0, 128] (m ((c.tc : Thread nD τ).loc main_arg3)) Cert.Spec.sl_W1c) (shapeCast Cert.Spec.SB (m ((c.tc : Thread nD τ).loc main_arg4)) Cert.Spec.sc_V) (m ((c.tc : Thread nD τ).loc main_arg5)) (shapeCast Cert.Spec.SB (m ((c.tc : Thread nD τ).loc main_arg6)) Cert.Spec.sc_V)) := by
  rw [show W5 (F := Ideal) m ρ c (Proc.devRef .tc main_v11) = (dat0 (V4 m ρ) c).arrAt 9 cfg0.N from W5_arr m ρ c 9,
    Cert.KernelIdeal.EdgeValue.edge_arr, V4_v4, V4_arg2, V4_v5, V4_v6, V4_v7, V4_v8, V4_v9, V4_arg5, V4_v10]
/-- A buffer that is none of region 0's arrays and that no earlier stretch writes is as launched. -/
theorem W5_launch {r : Ref sig .tc} (hr : ∀ w, Pipeline.arrRef spec0 w ≠ r) (h0 : r ∉ L0) (h1 : r ∉ L01) (h2 : r ∉ L02) (h3 : r ∉ L03) :
    W5 (F := Ideal) m ρ c (Proc.devRef .tc r) = m ((c.tc : Thread nD τ).loc r) :=
  (W5_of_ne m ρ c r hr).trans (W4_launch m ρ c h0 h1 h2 h3)
theorem W5_v1 : (W5 (F := Ideal) m ρ c (Proc.devRef .tc main_v1) : IVec S800000 32) = (Cert.Spec.srcOf (m ((c.tc : Thread nD τ).loc main_arg1))) :=
  (W5_of_ne m ρ c main_v1 (by decide)).trans (W4_v1 m ρ c)

/-! ### Region 1's entry -/

theorem V6_arg0 : (V6 (F := Ideal) m ρ c main_arg0 : FVec Ideal S50000x64 .f32) = (m ((c.tc : Thread nD τ).loc main_arg0)) :=
  (keep1 (W5 m ρ c) (r := main_arg0) (by decide)).trans (W5_launch m ρ c (r := main_arg0) (by decide) (by decide) (by decide) (by decide) (by decide))
theorem V6_arg9 : (V6 (F := Ideal) m ρ c main_arg9 : FVec Ideal S64x64 .f32) = (m ((c.tc : Thread nD τ).loc main_arg9)) :=
  (keep1 (W5 m ρ c) (r := main_arg9) (by decide)).trans (W5_launch m ρ c (r := main_arg9) (by decide) (by decide) (by decide) (by decide) (by decide))
/-- The aggregated rows: the edge stage summed into the source nodes, plus the node table. -/
theorem V6_v15 : (V6 (F := Ideal) m ρ c main_v15 : FVec Ideal S50000x64 .f32) = (addf (m ((c.tc : Thread nD τ).loc main_arg0)) (Host.scatterAdd Cert.Spec.sd (broadcastInDim Cert.Spec.SN ![] Cert.Spec.bc_0N (constant (F := Ideal) Cert.Spec.S0 .f32 0x00000000#32)) (broadcastInDim Cert.Spec.SI1 ![0] Cert.Spec.bc_II1 (Cert.Spec.srcOf (m ((c.tc : Thread nD τ).loc main_arg1)))) (Cert.Spec.edgeOut (Cert.Spec.rowsMasked (m ((c.tc : Thread nD τ).loc main_arg0)) (Cert.Spec.srcOf (m ((c.tc : Thread nD τ).loc main_arg1)))) (m ((c.tc : Thread nD τ).loc main_arg2)) (Cert.Spec.rowsMasked (m ((c.tc : Thread nD τ).loc main_arg0)) (Cert.Spec.dstOf (m ((c.tc : Thread nD τ).loc main_arg1)))) (extractStridedSlice Cert.Spec.SW ![0, 0] (m ((c.tc : Thread nD τ).loc main_arg3)) Cert.Spec.sl_W1a) (extractStridedSlice Cert.Spec.SW ![0, 64] (m ((c.tc : Thread nD τ).loc main_arg3)) Cert.Spec.sl_W1b) (extractStridedSlice Cert.Spec.SW ![0, 128] (m ((c.tc : Thread nD τ).loc main_arg3)) Cert.Spec.sl_W1c) (shapeCast Cert.Spec.SB (m ((c.tc : Thread nD τ).loc main_arg4)) Cert.Spec.sc_V) (m ((c.tc : Thread nD τ).loc main_arg5)) (shapeCast Cert.Spec.SB (m ((c.tc : Thread nD τ).loc main_arg6)) Cert.Spec.sc_V)))) := by
  refine (h1_v15 (W5 m ρ c)).trans ?_
  rw [W5_launch m ρ c (r := main_arg0) (by decide) (by decide) (by decide) (by decide) (by decide), W5_v1, W5_v11]
theorem V6_v16 : (V6 (F := Ideal) m ρ c main_v16 : FVec Ideal S64x64 .f32) = extractStridedSlice Cert.Spec.SW ![0, 0] (m ((c.tc : Thread nD τ).loc main_arg7)) Cert.Spec.sl_W3a :=
  (h1_v16 (W5 m ρ c)).trans (congrArg (fun w => extractStridedSlice Cert.Spec.SW ![0, 0] w Cert.Spec.sl_W3a) (W5_launch m ρ c (r := main_arg7) (by decide) (by decide) (by decide) (by decide) (by decide)))
theorem V6_v17 : (V6 (F := Ideal) m ρ c main_v17 : FVec Ideal S64x64 .f32) = extractStridedSlice Cert.Spec.SW ![0, 64] (m ((c.tc : Thread nD τ).loc main_arg7)) Cert.Spec.sl_W3b :=
  (h1_v17 (W5 m ρ c)).trans (congrArg (fun w => extractStridedSlice Cert.Spec.SW ![0, 64] w Cert.Spec.sl_W3b) (W5_launch m ρ c (r := main_arg7) (by decide) (by decide) (by decide) (by decide) (by decide)))
theorem V6_v18 : (V6 (F := Ideal) m ρ c main_v18 : FVec Ideal S1x64 .f32) = shapeCast Cert.Spec.SB (m ((c.tc : Thread nD τ).loc main_arg8)) Cert.Spec.sc_V :=
  (h1_v18 (W5 m ρ c)).trans (congrArg (fun b => shapeCast Cert.Spec.SB b Cert.Spec.sc_V) (W5_launch m ρ c (r := main_arg8) (by decide) (by decide) (by decide) (by decide) (by decide)))
theorem V6_v19 : (V6 (F := Ideal) m ρ c main_v19 : FVec Ideal S1x64 .f32) = shapeCast Cert.Spec.SB (m ((c.tc : Thread nD τ).loc main_arg10)) Cert.Spec.sc_V :=
  (h1_v19 (W5 m ρ c)).trans (congrArg (fun b => shapeCast Cert.Spec.SB b Cert.Spec.sc_V) (W5_launch m ρ c (r := main_arg10) (by decide) (by decide) (by decide) (by decide) (by decide)))

end Run

/-- The last boundary's contents of the result buffer: the layer over rows gathered with the mask. -/
theorem kernel_result (c : Dev nD) :
    W7 (F := Ideal) m ρ c (Proc.devRef .tc main_v20) =
      Cert.Spec.layer (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10))
        (Cert.Spec.rowsMasked (m ((c.tc : Thread nD τ).loc main_arg0)) (Cert.Spec.srcOf (m ((c.tc : Thread nD τ).loc main_arg1))))
        (Cert.Spec.rowsMasked (m ((c.tc : Thread nD τ).loc main_arg0)) (Cert.Spec.dstOf (m ((c.tc : Thread nD τ).loc main_arg1)))) := by
  unfold Cert.Spec.layer
  rw [show W7 (F := Ideal) m ρ c (Proc.devRef .tc main_v20) = (dat1 (V6 m ρ) c).arrAt 7 cfg1.N from W7_arr m ρ c 7,
    Cert.KernelIdeal.NodeValue.node_arr, V6_arg0, V6_v15, V6_v16, V6_v17, V6_v18, V6_arg9, V6_v19]

end Cert.KernelIdeal.HostValue

end
-- ==== Proof.Take.lean ====
/-
  Where every index lies in `[0, 50000)` the masked gather is the plain one: such an index is not negative, so it is
  its own wrapped value; the wrapped value then passes both bounds of the mask, the mask's row is set, and the row
  selected is the gathered one.
-/
import proofs.«407157_j86285892976708_1_alg».proof.Proof.Spec
import Idealize.ShloMosaic.Lib.ValueIdx
import Idealize.ShloMosaic.Lib.ReduceAll
import Idealize.ShloMosaic.Lib.StableHlo.Predicate
import Idealize.ShloMosaic.Lib.Pipeline.Value
import Idealize.ShloMosaic.Lib.DynamicIndex

noncomputable section

open Idealize.ShloMosaic Idealize.ShloMosaic.ValueIdx

namespace Cert.Spec

/-- A left fold by `and` that starts at 1 and meets only 1s is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi (1#1) (1#1) = 1#1 := by decide
    rw [List.foldl_cons, ha, h11]
    exact foldl_andi_of_all_one f l (fun n hn => h n (List.mem_cons_of_mem _ hn))

/-- A reduce by `and` from 1 of an array whose every word is 1 is 1 at every result index. -/
theorem reduce_andi_of_all_one {s t u : Shape} {axes : List (Fin s.rank)} (x : s.Idx → BitVec 1)
    (init : u.Idx → BitVec 1) (h : s.ReducesTo axes t) (hu : 0 < u.numel) (hinit : init (Shape.Idx.first hu) = 1#1)
    (hx : ∀ i, x i = 1#1) (j : t.Idx) : Host.reduce IntOp.andi x init h hu j = 1#1 := by
  rw [Host.reduce_eq_foldl, hinit]
  exact foldl_andi_of_all_one x _ (fun n _ => hx n)

/-- A broadcast of an array that is the same word everywhere is that word everywhere. -/
theorem broadcastInDim_of_const {α : Type} {s t : Shape} (dims : Fin s.rank → Fin t.rank) (h : s.BroadcastsInDim t dims)
    (x : s.Idx → α) (c : α) (hx : ∀ k, x k = c) (j : t.Idx) : broadcastInDim t dims h x j = c := by
  unfold broadcastInDim
  exact hx _

/-- A select whose condition's bit at an index is 1 reads its first operand there. -/
theorem select_of_cond_one {α : Type} {s : Shape} (c : IVec s 1) (a b : s.Idx → α) (j : s.Idx) (hc : c j = 1#1) :
    select c a b j = a j := by
  rw [select_apply, hc, select_one]

/-- An index that is not negative is its own wrapped value: row `i` of the wrapped column is the index at `i`'s row. -/
theorem wrapped_apply (idx : IVec SI 32) (h : ∀ e : SI.Idx, 0 ≤ (idx e).toInt) (i : SI1.Idx) :
    wrapped idx i = idx (Shape.Idx.ofFin (i 0)) := by
  unfold wrapped
  refine (broadcastInDim_apply ![0] bc_II1 _ i (Shape.Idx.ofFin (i 0)) (fun a => ?_)).trans ?_
  · have ha : a = 0 := Subsingleton.elim _ _
    subst ha
    rfl
  · exact select_slt_zero_of_nonneg idx _ _ _ (h _)

/-- Masked and plain gathers agree when every index is in the table's range. -/
theorem rowsMasked_eq_rows (x : FVec Ideal SN .f32) (idx : IVec SI 32)
    (h : ∀ e : SI.Idx, 0 ≤ (idx e).toInt ∧ (idx e).toInt < 50000) : rowsMasked x idx = rows x idx := by
  funext j
  unfold rowsMasked rows
  refine select_of_cond_one _ _ _ j ?_
  refine broadcastInDim_of_const _ _ _ _ (fun k => ?_) j
  refine reduce_andi_of_all_one _ _ _ _ rfl (fun i => ?_) k
  show IntOp.andi (IntOp.cmpi .sge (wrapped idx i) 0#32) (IntOp.cmpi .sle (wrapped idx i) 49999#32) = 1#1
  rw [wrapped_apply idx (fun e => (h e).1) i, IntOp.andi_eq_one, IntOp.cmpi_sge, IntOp.cmpi_sle]
  have h0 : (0#32 : BitVec 32).toInt = 0 := by decide
  have h1 : (49999#32 : BitVec 32).toInt = 49999 := by decide
  have hi := h (Shape.Idx.ofFin (i 0))
  rw [h0, h1]
  omega

end Cert.Spec

end
-- ==== Proof.PreRange.lean ====
/-
  The precondition's last conjunct, read back: it is the conjunction over every entry of the index pair array of
  `0 ≤ entry` and `entry < 50000` (signed), so under the precondition every source and every destination index
  lies in the node table's range.
-/
import proofs.«407157_j86285892976708_1_alg».proof.Pre_finite_inputs
import proofs.«407157_j86285892976708_1_alg».proof.Proof.Gen.Pre_finite_inputs
import proofs.«407157_j86285892976708_1_alg».proof.Proof.Spec
import Idealize.ShloMosaic.Lib.ValueIdx
import Idealize.ShloMosaic.Lib.ReduceAll
import Idealize.ShloMosaic.Lib.StableHlo.Predicate
import Idealize.ShloMosaic.Lib.Pipeline.Value

noncomputable section

open Idealize.ShloMosaic Idealize.ShloMosaic.ValueIdx

namespace Cert.PreRange

open Cert.Pre_finite_inputs

variable {a0 : FVec Ideal S50000x64 .f32} {E : IVec S2x800000 32} {a2 : FVec Ideal S800000x64 .f32}
  {a3 : FVec Ideal S64x192 .f32} {a4 : FVec Ideal S64 .f32} {a5 : FVec Ideal S64x64 .f32} {a6 : FVec Ideal S64 .f32}
  {a7 : FVec Ideal S64x128 .f32} {a8 : FVec Ideal S64 .f32} {a9 : FVec Ideal S64x64 .f32} {a10 : FVec Ideal S64 .f32}

/-- The scalar shape has a single index. -/
instance subsingleton_scalar_idx : Subsingleton S_.Idx := ⟨fun a b => funext fun d => d.elim0⟩

/-- Under the precondition every entry of the index pair array is in `[0, 50000)`. -/
theorem entry_range (h : fn (F := Ideal) a0 E a2 a3 a4 a5 a6 a7 a8 a9 a10 = fun _ => 1#1) (i : S2x800000.Idx) :
    0 ≤ (E i).toInt ∧ (E i).toInt < 50000 := by
  -- the predicate's one word is 1
  have h0 := congrFun h ValueIdx.ix0
  dsimp only [fn, fn_part1, fn_part2, fn_part3] at h0
  -- its last conjunct is the conjunction over all entries of the two compares
  have h1 := (IntOp.andi_eq_one.1 h0).2
  -- so the two compares hold at every entry
  have h2 := Host.reduce_andi_all _ _ _ _ _ h1 i
  obtain ⟨hge, hlt⟩ := IntOp.andi_eq_one.1 h2
  -- each compares the entry with a broadcast scalar constant, read signed
  have hge' := IntOp.cmpi_sge.1 hge
  have hlt' := IntOp.cmpi_slt.1 hlt
  -- a broadcast scalar constant is that constant at every index
  have hge'' : (0#32 : BitVec 32).toInt ≤ (E i).toInt := hge'
  have hlt'' : (E i).toInt < (50000#32 : BitVec 32).toInt := hlt'
  have e0 : (0#32 : BitVec 32).toInt = 0 := by decide
  have e1 : (50000#32 : BitVec 32).toInt = 50000 := by decide
  rw [e0] at hge''
  rw [e1] at hlt''
  exact ⟨hge'', hlt''⟩

/-- Row 0 of the index pair array, read at an edge. -/
theorem srcOf_apply (E : IVec Cert.Spec.S2E 32) (e : Cert.Spec.SI.Idx) :
    Cert.Spec.srcOf E e = E (ix2 (0 : Fin 2) (e 0 : Fin 800000)) := by
  unfold Cert.Spec.srcOf
  refine (shapeCast_apply _ Cert.Spec.sc_E e (ix2 (0 : Fin 1) (e 0 : Fin 800000)) ?_).trans ?_
  · rw [Shape.rowMajor_val_two, Shape.rowMajor_val_one]
    show 0 * 800000 + (e 0).val = (e 0).val
    omega
  · exact extractStridedSlice_apply _ _ Cert.Spec.sl_E0 _ _ (by
      intro a
      match a with
      | ⟨0, _⟩ => rfl
      | ⟨1, _⟩ => show (e 0).val = 0 + (e 0).val; omega)

/-- Row 1 of the index pair array, read at an edge. -/
theorem dstOf_apply (E : IVec Cert.Spec.S2E 32) (e : Cert.Spec.SI.Idx) :
    Cert.Spec.dstOf E e = E (ix2 (1 : Fin 2) (e 0 : Fin 800000)) := by
  unfold Cert.Spec.dstOf
  refine (shapeCast_apply _ Cert.Spec.sc_E e (ix2 (0 : Fin 1) (e 0 : Fin 800000)) ?_).trans ?_
  · rw [Shape.rowMajor_val_two, Shape.rowMajor_val_one]
    show 0 * 800000 + (e 0).val = (e 0).val
    omega
  · exact extractStridedSlice_apply _ _ Cert.Spec.sl_E1 _ _ (by
      intro a
      match a with
      | ⟨0, _⟩ => rfl
      | ⟨1, _⟩ => show (e 0).val = 0 + (e 0).val; omega)

/-- Every source index is in range. -/
theorem src_range (h : fn (F := Ideal) a0 E a2 a3 a4 a5 a6 a7 a8 a9 a10 = fun _ => 1#1) (e : Cert.Spec.SI.Idx) :
    0 ≤ (Cert.Spec.srcOf E e).toInt ∧ (Cert.Spec.srcOf E e).toInt < 50000 := by
  rw [srcOf_apply]
  exact entry_range h _

/-- Every destination index is in range. -/
theorem dst_range (h : fn (F := Ideal) a0 E a2 a3 a4 a5 a6 a7 a8 a9 a10 = fun _ => 1#1) (e : Cert.Spec.SI.Idx) :
    0 ≤ (Cert.Spec.dstOf E e).toInt ∧ (Cert.Spec.dstOf E e).toInt < 50000 := by
  rw [dstOf_apply]
  exact entry_range h _

end Cert.PreRange

end
-- ==== Proof.RefEdge.lean ====
/-
  The reference's edge stage is the specification's. The reference joins the source row, the edge's row and the
  destination row side by side (192 = 64 + 64 + 64 columns) and takes one product with the transposed first weight
  table; a sum over the joined columns is the sum of the sums over each 64-column block, and a block of the joined
  input against the matching block of the table is that input against that block. Only the commutativity and
  associativity of addition on the extended reals are used.
-/
import proofs.«407157_j86285892976708_1_alg».proof.ReferenceIdeal
import proofs.«407157_j86285892976708_1_alg».proof.Proof.Gen.ReferenceIdeal
import proofs.«407157_j86285892976708_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«407157_j86285892976708_1_alg».proof.Proof.Gen.ReferenceIdeal.Read
import Mathlib.Algebra.BigOperators.Fin

set_option maxRecDepth 16384

noncomputable section

open scoped BigOperators
open Idealize.ShloMosaic Idealize.ShloMosaic.ValueIdx

namespace Cert.ReferenceIdeal.Stages

open Cert.ReferenceIdeal Cert.ReferenceIdeal.Gen Cert.ReferenceIdeal.Read

/-- A sum over 192 columns is the sum of the sums over its three 64-column blocks: only the grouping of the
    additions changes. -/
theorem edge_sum_three_blocks (f : Fin 192 → EReal) :
    ∑ c : Fin 192, f c
      = ((∑ a : Fin 64, f ⟨a.val, by omega⟩) + ∑ a : Fin 64, f ⟨64 + a.val, by omega⟩)
        + ∑ a : Fin 64, f ⟨128 + a.val, by omega⟩ := by
  have h1 : ∑ c : Fin 192, f c = _ := Fin.sum_univ_add (a := 128) (b := 64) f
  have h2 : ∑ i : Fin 128, f (Fin.castAdd 64 i) = _ :=
    Fin.sum_univ_add (a := 64) (b := 64) fun i : Fin 128 => f (Fin.castAdd 64 i)
  rw [h1, h2]
  rfl

/-- The first product at edge `e`, unit `j`: the sum over the 192 joined columns `c` of the left operand at
    `(e, c)` times the right operand at `(c, j)`. -/
theorem edge_dot192_apply (y0 : FVec Ideal S800000x192 .f32) (y1 : FVec Ideal S192x64 .f32) (e : Fin 800000) (j : Fin 64) :
    Host.dotGeneral dot_S800000x192_S192x64_S800000x64_1_0_0_1_n_n none y0 y1 (ix2 e j) = ∑ c : Fin 192, y0 (ix2 e c) * y1 (ix2 c j) := by
  simp only [Host.dotGeneral]
  rw [Ideal.dotGeneral_apply, ← Equiv.sum_comp (ValueIdx.contrEquiv1 dot_S800000x192_S192x64_S800000x64_1_0_0_1_n_n 192 rfl rfl).symm]
  refine Finset.sum_congr rfl fun c _ => ?_
  have hc := ValueIdx.contrEquiv1_symm_val dot_S800000x192_S192x64_S800000x64_1_0_0_1_n_n 192 rfl rfl c
  have el : dot_S800000x192_S192x64_S800000x64_1_0_0_1_n_n.lhsIdx (ix2 e j) ((ValueIdx.contrEquiv1 dot_S800000x192_S192x64_S800000x64_1_0_0_1_n_n 192 rfl rfl).symm c) = ix2 e c :=
    funext fun a => Fin.ext (by
      match a with
      | ⟨0, _⟩ => exact lhs_main_v20_0 _ _
      | ⟨1, _⟩ => exact (lhs_main_v20_1 _ _).trans hc)
  have er : dot_S800000x192_S192x64_S800000x64_1_0_0_1_n_n.rhsIdx (ix2 e j) ((ValueIdx.contrEquiv1 dot_S800000x192_S192x64_S800000x64_1_0_0_1_n_n 192 rfl rfl).symm c) = ix2 c j :=
    funext fun a => Fin.ext (by
      match a with
      | ⟨0, _⟩ => exact (rhs_main_v20_0 _ _).trans hc
      | ⟨1, _⟩ => exact rhs_main_v20_1 _ _)
  rw [el, er]

/-- The second product at edge `e`, column `j`: the sum over the 64 hidden units `k` of the left operand at
    `(e, k)` times the right operand at `(k, j)`. -/
theorem edge_dot64_apply (y0 : FVec Ideal S800000x64 .f32) (y1 : FVec Ideal S64x64 .f32) (e : Fin 800000) (j : Fin 64) :
    Host.dotGeneral dot_S800000x64_S64x64_S800000x64_1_0_0_1_n_n none y0 y1 (ix2 e j) = ∑ k : Fin 64, y0 (ix2 e k) * y1 (ix2 k j) := by
  simp only [Host.dotGeneral]
  rw [Ideal.dotGeneral_apply, ← Equiv.sum_comp (ValueIdx.contrEquiv1 dot_S800000x64_S64x64_S800000x64_1_0_0_1_n_n 64 rfl rfl).symm]
  refine Finset.sum_congr rfl fun k _ => ?_
  have hk := ValueIdx.contrEquiv1_symm_val dot_S800000x64_S64x64_S800000x64_1_0_0_1_n_n 64 rfl rfl k
  have el : dot_S800000x64_S64x64_S800000x64_1_0_0_1_n_n.lhsIdx (ix2 e j) ((ValueIdx.contrEquiv1 dot_S800000x64_S64x64_S800000x64_1_0_0_1_n_n 64 rfl rfl).symm k) = ix2 e k :=
    funext fun a => Fin.ext (by
      match a with
      | ⟨0, _⟩ => exact lhs_main_v26_0 _ _
      | ⟨1, _⟩ => exact (lhs_main_v26_1 _ _).trans hk)
  have er : dot_S800000x64_S64x64_S800000x64_1_0_0_1_n_n.rhsIdx (ix2 e j) ((ValueIdx.contrEquiv1 dot_S800000x64_S64x64_S800000x64_1_0_0_1_n_n 64 rfl rfl).symm k) = ix2 k j :=
    funext fun a => Fin.ext (by
      match a with
      | ⟨0, _⟩ => exact (rhs_main_v26_0 _ _).trans hk
      | ⟨1, _⟩ => exact rhs_main_v26_1 _ _)
  rw [el, er]

/-- A joined column below 64 reads the first array at that column. -/
theorem edge_cat_first (fs fe fd : FVec Ideal S800000x64 .f32) (e : Fin 800000) (a : Fin 64) :
    concatenate S800000x192 1 [⟨S800000x64, fs⟩, ⟨S800000x64, fe⟩, ⟨S800000x64, fd⟩]
        concatenates_S800000x64_S800000x64_S800000x64_S800000x192_d1 (ix2 e (⟨a.val, by omega⟩ : Fin 192)) = fs (ix2 e a) :=
  concatenate_apply_piece (t := S800000x192) 1 [⟨S800000x64, fs⟩, ⟨S800000x64, fe⟩, ⟨S800000x64, fd⟩] concatenates_S800000x64_S800000x64_S800000x64_S800000x192_d1 (ix2 e (⟨a.val, by omega⟩ : Fin 192))
    0 (by show (0 : Nat) < 3; decide) S800000x64 fs rfl rfl 0 rfl (ix2 e a)
    (by intro b hb; match b, hb with
      | ⟨0, _⟩, _ => rfl
      | ⟨1, _⟩, hb => exact absurd rfl hb)
    (Nat.zero_add _)

/-- A joined column `64 + a` reads the second array at column `a`. -/
theorem edge_cat_second (fs fe fd : FVec Ideal S800000x64 .f32) (e : Fin 800000) (a : Fin 64) :
    concatenate S800000x192 1 [⟨S800000x64, fs⟩, ⟨S800000x64, fe⟩, ⟨S800000x64, fd⟩]
        concatenates_S800000x64_S800000x64_S800000x64_S800000x192_d1 (ix2 e (⟨64 + a.val, by omega⟩ : Fin 192)) = fe (ix2 e a) :=
  concatenate_apply_piece (t := S800000x192) 1 [⟨S800000x64, fs⟩, ⟨S800000x64, fe⟩, ⟨S800000x64, fd⟩] concatenates_S800000x64_S800000x64_S800000x64_S800000x192_d1 (ix2 e (⟨64 + a.val, by omega⟩ : Fin 192))
    1 (by show (1 : Nat) < 3; decide) S800000x64 fe rfl rfl 64 rfl (ix2 e a)
    (by intro b hb; match b, hb with
      | ⟨0, _⟩, _ => rfl
      | ⟨1, _⟩, hb => exact absurd rfl hb)
    rfl

/-- A joined column `128 + a` reads the third array at column `a`. -/
theorem edge_cat_third (fs fe fd : FVec Ideal S800000x64 .f32) (e : Fin 800000) (a : Fin 64) :
    concatenate S800000x192 1 [⟨S800000x64, fs⟩, ⟨S800000x64, fe⟩, ⟨S800000x64, fd⟩]
        concatenates_S800000x64_S800000x64_S800000x64_S800000x192_d1 (ix2 e (⟨128 + a.val, by omega⟩ : Fin 192)) = fd (ix2 e a) :=
  concatenate_apply_piece (t := S800000x192) 1 [⟨S800000x64, fs⟩, ⟨S800000x64, fe⟩, ⟨S800000x64, fd⟩] concatenates_S800000x64_S800000x64_S800000x64_S800000x192_d1 (ix2 e (⟨128 + a.val, by omega⟩ : Fin 192))
    2 (by show (2 : Nat) < 3; decide) S800000x64 fd rfl rfl 128 rfl (ix2 e a)
    (by intro b hb; match b, hb with
      | ⟨0, _⟩, _ => rfl
      | ⟨1, _⟩, hb => exact absurd rfl hb)
    rfl

/-- A bias made a row and repeated down the edges reads, at `(e, j)`, the bias cast to a row at `(0, j)`: both are
    the bias at `j`. -/
theorem edge_bias_apply (b : FVec Ideal S64 .f32) (e : Fin 800000) (j : Fin 64) :
    broadcastInDim S800000x64 ![0, 1] bcast_S1x64_S800000x64_0_1 (broadcastInDim S1x64 ![1] bcast_S64_S1x64_1 b) (ix2 e j)
      = shapeCast Cert.Spec.SB b Cert.Spec.sc_V (ix2 0 j) := by
  rw [shapeCast_a_1a_apply,
    broadcastInDim_apply ![0, 1] bcast_S1x64_S800000x64_0_1 _ (ix2 e j) (ix2 (0 : Fin 1) j) (fun a => match a with
      | ⟨0, _⟩ => by show 0 = if (1 : Nat) = 1 then 0 else e.val; rw [if_pos rfl]
      | ⟨1, _⟩ => by show j.val = if (64 : Nat) = 1 then 0 else j.val; rw [if_neg (by decide)])]
  exact broadcastInDim_apply ![1] bcast_S64_S1x64_1 b (ix2 (0 : Fin 1) j) (ix1 j) (fun a => match a with
    | ⟨0, _⟩ => by show j.val = if (64 : Nat) = 1 then 0 else j.val; rw [if_neg (by decide)])

/-- The repeated zero word reads the extended real zero everywhere. -/
theorem edge_zero_apply (i : S800000x64.Idx) :
    broadcastInDim S800000x64 ![] bcast_S_S800000x64 (constant (F := Ideal) S_ .f32 0x00000000#32) i = 0 := by
  rw [broadcastInDim_apply _ bcast_S_S800000x64 _ i (fun a => a.elim0) (fun a => a.elim0), constant_apply,
    Ideal.ofBits_zero_f32]

/-- The reference's hidden value at edge `e`, unit `k` is the specification's: the sum over the 192 joined columns
    splits into its three blocks, and in block `t` the joined input at column `64 t + a` is the `t`-th array at `a`
    while the transposed table at `(64 t + a, k)` is the `t`-th slice of the table at `(k, a)`. -/
theorem edge_hid_eq (fs fe fd : FVec Ideal S800000x64 .f32) (W1 : FVec Ideal S64x192 .f32) (b1 : FVec Ideal S64 .f32)
    (e : Fin 800000) (k : Fin 64) :
    maximumf
        (addf (Host.dotGeneral dot_S800000x192_S192x64_S800000x64_1_0_0_1_n_n none
            (concatenate S800000x192 1 [⟨S800000x64, fs⟩, ⟨S800000x64, fe⟩, ⟨S800000x64, fd⟩]
        concatenates_S800000x64_S800000x64_S800000x64_S800000x192_d1)
            (transpose S192x64 [1, 0] W1 transposes_S64x192_S192x64_1_0))
          (broadcastInDim S800000x64 ![0, 1] bcast_S1x64_S800000x64_0_1 (broadcastInDim S1x64 ![1] bcast_S64_S1x64_1 b1)))
        (broadcastInDim S800000x64 ![] bcast_S_S800000x64 (constant (F := Ideal) S_ .f32 0x00000000#32)) (ix2 e k)
      = Cert.Spec.edgeHid fs fe fd (extractStridedSlice Cert.Spec.SW ![0, 0] W1 Cert.Spec.sl_W1a)
          (extractStridedSlice Cert.Spec.SW ![0, 64] W1 Cert.Spec.sl_W1b)
          (extractStridedSlice Cert.Spec.SW ![0, 128] W1 Cert.Spec.sl_W1c) (shapeCast Cert.Spec.SB b1 Cert.Spec.sc_V) e k := by
  unfold Cert.Spec.edgeHid
  rw [maximumf_apply, addf_apply, edge_zero_apply, edge_bias_apply, edge_dot192_apply, edge_sum_three_blocks]
  refine congrArg₂ max (congrArg₂ (· + ·) (congrArg₂ (· + ·) (congrArg₂ (· + ·) ?_ ?_) ?_) rfl) rfl
  · refine Finset.sum_congr rfl fun a _ => ?_
    beta_reduce
    rw [edge_cat_first, transpose_ix2_apply,
      slice2_axis1_apply 0 W1 Cert.Spec.sl_W1a k a ⟨a.val, by omega⟩ (Nat.zero_add _).symm]
  · refine Finset.sum_congr rfl fun a _ => ?_
    beta_reduce
    rw [edge_cat_second, transpose_ix2_apply,
      slice2_axis1_apply 64 W1 Cert.Spec.sl_W1b k a ⟨64 + a.val, by omega⟩ rfl]
  · refine Finset.sum_congr rfl fun a _ => ?_
    beta_reduce
    rw [edge_cat_third, transpose_ix2_apply,
      slice2_axis1_apply 128 W1 Cert.Spec.sl_W1c k a ⟨128 + a.val, by omega⟩ rfl]

/-- The reference's edge stage is the specification's, over the three 64-column blocks of `W1`. -/
theorem edge_stage (fs fe fd : FVec Ideal S800000x64 .f32) (W1 : FVec Ideal S64x192 .f32) (b1 : FVec Ideal S64 .f32)
    (W2 : FVec Ideal S64x64 .f32) (b2 : FVec Ideal S64 .f32) :
    addf (Host.dotGeneral dot_S800000x64_S64x64_S800000x64_1_0_0_1_n_n none
        (maximumf
          (addf (Host.dotGeneral dot_S800000x192_S192x64_S800000x64_1_0_0_1_n_n none
              (concatenate S800000x192 1 [⟨S800000x64, fs⟩, ⟨S800000x64, fe⟩, ⟨S800000x64, fd⟩]
                concatenates_S800000x64_S800000x64_S800000x64_S800000x192_d1)
              (transpose S192x64 [1, 0] W1 transposes_S64x192_S192x64_1_0))
            (broadcastInDim S800000x64 ![0, 1] bcast_S1x64_S800000x64_0_1 (broadcastInDim S1x64 ![1] bcast_S64_S1x64_1 b1)))
          (broadcastInDim S800000x64 ![] bcast_S_S800000x64 (constant (F := Ideal) S_ .f32 0x00000000#32)))
        (transpose S64x64 [1, 0] W2 transposes_S64x64_S64x64_1_0))
      (broadcastInDim S800000x64 ![0, 1] bcast_S1x64_S800000x64_0_1 (broadcastInDim S1x64 ![1] bcast_S64_S1x64_1 b2))
    = Cert.Spec.edgeOut fs fe fd (extractStridedSlice Cert.Spec.SW ![0, 0] W1 Cert.Spec.sl_W1a)
        (extractStridedSlice Cert.Spec.SW ![0, 64] W1 Cert.Spec.sl_W1b)
        (extractStridedSlice Cert.Spec.SW ![0, 128] W1 Cert.Spec.sl_W1c) (shapeCast Cert.Spec.SB b1 Cert.Spec.sc_V) W2
        (shapeCast Cert.Spec.SB b2 Cert.Spec.sc_V) := by
  funext i
  obtain ⟨e, j, rfl⟩ : ∃ (e : Fin 800000) (j : Fin 64), i = ix2 e j := ⟨i 0, i 1, eq_ix2 i⟩
  unfold Cert.Spec.edgeOut
  rw [addf_apply, edge_bias_apply, edge_dot64_apply]
  refine congrArg₂ (· + ·) (Finset.sum_congr rfl fun k _ => ?_) rfl
  rw [edge_hid_eq, transpose_ix2_apply]

end Cert.ReferenceIdeal.Stages

end
-- ==== Proof.RefNode.lean ====
/-
  The reference's node stage is the specification's. The reference joins the node's row and its aggregated row side
  by side (128 = 64 + 64 columns) and takes one product with the transposed third weight table; a sum over the joined
  columns is the sum of the sums over each 64-column block, and a block of the joined input against the matching
  block of the table is that input against that block. Only the commutativity and associativity of addition on the
  extended reals are used.
-/
import proofs.«407157_j86285892976708_1_alg».proof.ReferenceIdeal
import proofs.«407157_j86285892976708_1_alg».proof.Proof.Gen.ReferenceIdeal
import proofs.«407157_j86285892976708_1_alg».proof.Proof.Gen.ReferenceIdeal.Read
import proofs.«407157_j86285892976708_1_alg».proof.Proof.Spec
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws
import Mathlib.Algebra.BigOperators.Fin

set_option maxRecDepth 16384

noncomputable section

open scoped BigOperators
open Idealize.ShloMosaic Idealize.ShloMosaic.ValueIdx

namespace Cert.ReferenceIdeal.Stages

open Cert.ReferenceIdeal Cert.ReferenceIdeal.Gen

/-- A sum over 128 columns is the sum over the first 64 plus the sum over the last 64. -/
theorem node_sum_split (f : Fin 128 → EReal) :
    ∑ c : Fin 128, f c
      = (∑ a : Fin 64, f ⟨a.val, Nat.lt_of_lt_of_le a.isLt (by decide)⟩)
        + ∑ a : Fin 64, f ⟨64 + a.val, Nat.add_lt_add_left a.isLt 64⟩ :=
  Fin.sum_univ_add (a := 64) (b := 64) f

/-- The 128-column product at row `n`, column `k`: the sum over the joined columns. -/
theorem node_dot128_apply (y0 : FVec Ideal S50000x128 .f32) (y1 : FVec Ideal S128x64 .f32) (n : Fin 50000) (k : Fin 64) :
    Host.dotGeneral dot_S50000x128_S128x64_S50000x64_1_0_0_1_n_n none y0 y1 (ix2 n k)
      = ∑ c : Fin 128, y0 (ix2 n c) * y1 (ix2 c k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun c _ => ?_
  have hk := ValueIdx.contrEquiv1_symm_val dot_S50000x128_S128x64_S50000x64_1_0_0_1_n_n 128 rfl rfl c
  have el : dot_S50000x128_S128x64_S50000x64_1_0_0_1_n_n.lhsIdx (ix2 n k) ((ValueIdx.contrEquiv1 dot_S50000x128_S128x64_S50000x64_1_0_0_1_n_n 128 rfl rfl).symm c) = ix2 n c := funext fun a => Fin.ext (by
    match a with
    | ⟨0, _⟩ => exact Read.lhs_main_v36_0 _ _
    | ⟨1, _⟩ => exact (Read.lhs_main_v36_1 _ _).trans hk)
  have er : dot_S50000x128_S128x64_S50000x64_1_0_0_1_n_n.rhsIdx (ix2 n k) ((ValueIdx.contrEquiv1 dot_S50000x128_S128x64_S50000x64_1_0_0_1_n_n 128 rfl rfl).symm c) = ix2 c k := funext fun a => Fin.ext (by
    match a with
    | ⟨0, _⟩ => exact (Read.rhs_main_v36_0 _ _).trans hk
    | ⟨1, _⟩ => exact Read.rhs_main_v36_1 _ _)
  rw [el, er]

/-- The 64-column product at row `n`, column `j`. -/
theorem node_dot64_apply (y0 : FVec Ideal S50000x64 .f32) (y1 : FVec Ideal S64x64 .f32) (n : Fin 50000) (j : Fin 64) :
    Host.dotGeneral dot_S50000x64_S64x64_S50000x64_1_0_0_1_n_n none y0 y1 (ix2 n j)
      = ∑ k : Fin 64, y0 (ix2 n k) * y1 (ix2 k j) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 n j) ((ValueIdx.contrEquiv1 dot_S50000x64_S64x64_S50000x64_1_0_0_1_n_n 64 rfl rfl).symm k) = ix2 n k := funext fun a => Fin.ext (by
    match a with
    | ⟨0, _⟩ => exact Read.lhs_main_v42_0 _ _
    | ⟨1, _⟩ => exact (Read.lhs_main_v42_1 _ _).trans hk)
  have er : dot_S50000x64_S64x64_S50000x64_1_0_0_1_n_n.rhsIdx (ix2 n j) ((ValueIdx.contrEquiv1 dot_S50000x64_S64x64_S50000x64_1_0_0_1_n_n 64 rfl rfl).symm k) = ix2 k j := funext fun a => Fin.ext (by
    match a with
    | ⟨0, _⟩ => exact (Read.rhs_main_v42_0 _ _).trans hk
    | ⟨1, _⟩ => exact Read.rhs_main_v42_1 _ _)
  rw [el, er]

/-- A bias broadcast to a row and then down the rows reads, at `(n, j)`, the bias cast to a row at `(0, j)`. -/
theorem node_bias_apply (b : FVec Ideal S64 .f32) (n : Fin 50000) (j : Fin 64) :
    broadcastInDim S50000x64 ![0, 1] bcast_S1x64_S50000x64_0_1 (broadcastInDim S1x64 ![1] bcast_S64_S1x64_1 b) (ix2 n j)
      = shapeCast Cert.Spec.SB b Cert.Spec.sc_V (ix2 (0 : Fin 1) j) := by
  rw [broadcastInDim_oneRow_apply, shapeCast_a_1a_apply]
  exact broadcastInDim_apply _ bcast_S64_S1x64_1 b (ix2 (0 : Fin 1) j) (ix1 j) (fun a => match a with
    | ⟨0, _⟩ => by show j.val = if (64 : Nat) = 1 then 0 else j.val; rw [if_neg (by decide)])

/-- A column below 64 of the joined array is the first array's column. -/
theorem node_concat_left (x s : FVec Ideal S50000x64 .f32) (n : Fin 50000) (a : Fin 64) :
    concatenate S50000x128 1 [⟨S50000x64, x⟩, ⟨S50000x64, s⟩] concatenates_S50000x64_S50000x64_S50000x128_d1
        (ix2 n (⟨a.val, Nat.lt_of_lt_of_le a.isLt (by decide)⟩ : Fin 128)) = x (ix2 n a) :=
  concatenate_pair_apply_left 1 x s concatenates_S50000x64_S50000x64_S50000x128_d1
    (ix2 n (⟨a.val, Nat.lt_of_lt_of_le a.isLt (by decide)⟩ : Fin 128)) rfl (ix2 n a)
    (fun b => match b with
      | ⟨0, _⟩ => rfl
      | ⟨1, _⟩ => rfl)

/-- Column `64 + a` of the joined array is the second array's column `a`. -/
theorem node_concat_right (x s : FVec Ideal S50000x64 .f32) (n : Fin 50000) (a : Fin 64) :
    concatenate S50000x128 1 [⟨S50000x64, x⟩, ⟨S50000x64, s⟩] concatenates_S50000x64_S50000x64_S50000x128_d1
        (ix2 n (⟨64 + a.val, Nat.add_lt_add_left a.isLt 64⟩ : Fin 128)) = s (ix2 n a) :=
  concatenate_pair_apply_right 1 x s concatenates_S50000x64_S50000x64_S50000x128_d1
    (ix2 n (⟨64 + a.val, Nat.add_lt_add_left a.isLt 64⟩ : Fin 128)) rfl rfl (ix2 n a)
    (fun b hb => match b, hb with
      | ⟨0, _⟩, _ => rfl
      | ⟨1, _⟩, hb => absurd rfl hb)
    (Nat.add_comm a.val 64)

/-- The joined row against a row of the transposed table is the node's row against the table's first block plus
    the aggregated row against its second block. -/
theorem node_contract_eq (x s : FVec Ideal S50000x64 .f32) (W3 : FVec Ideal S64x128 .f32) (n : Fin 50000) (k : Fin 64) :
    ∑ c : Fin 128,
        concatenate S50000x128 1 [⟨S50000x64, x⟩, ⟨S50000x64, s⟩] concatenates_S50000x64_S50000x64_S50000x128_d1 (ix2 n c)
          * transpose S128x64 [1, 0] W3 transposes_S64x128_S128x64_1_0 (ix2 c k)
      = (∑ a : Fin 64, x (ix2 n a) * extractStridedSlice Cert.Spec.SW ![0, 0] W3 Cert.Spec.sl_W3a (ix2 k a))
        + ∑ a : Fin 64, s (ix2 n a) * extractStridedSlice Cert.Spec.SW ![0, 64] W3 Cert.Spec.sl_W3b (ix2 k a) := by
  rw [node_sum_split]
  refine congrArg₂ (· + ·) (Finset.sum_congr rfl fun a _ => ?_) (Finset.sum_congr rfl fun a _ => ?_)
  · rw [node_concat_left, transpose_ix2_apply,
      slice2_axis1_apply 0 W3 Cert.Spec.sl_W3a k a ⟨a.val, Nat.lt_of_lt_of_le a.isLt (by decide)⟩ (Nat.zero_add _).symm]
  · rw [node_concat_right, transpose_ix2_apply,
      slice2_axis1_apply 64 W3 Cert.Spec.sl_W3b k a ⟨64 + a.val, Nat.add_lt_add_left a.isLt 64⟩ rfl]

/-- The reference's hidden value at `(n, k)` is the specification's. -/
theorem node_hid_eq (x s : FVec Ideal S50000x64 .f32) (W3 : FVec Ideal S64x128 .f32) (b3 : FVec Ideal S64 .f32)
    (n : Fin 50000) (k : Fin 64) :
    maximumf
        (addf (Host.dotGeneral dot_S50000x128_S128x64_S50000x64_1_0_0_1_n_n none
            (concatenate S50000x128 1 [⟨S50000x64, x⟩, ⟨S50000x64, s⟩] concatenates_S50000x64_S50000x64_S50000x128_d1)
            (transpose S128x64 [1, 0] W3 transposes_S64x128_S128x64_1_0))
          (broadcastInDim S50000x64 ![0, 1] bcast_S1x64_S50000x64_0_1 (broadcastInDim S1x64 ![1] bcast_S64_S1x64_1 b3)))
        (broadcastInDim S50000x64 ![] bcast_S_S50000x64 (constant (F := Ideal) S_ .f32 0x00000000#32)) (ix2 n k)
      = Cert.Spec.nodeHid x s (extractStridedSlice Cert.Spec.SW ![0, 0] W3 Cert.Spec.sl_W3a)
          (extractStridedSlice Cert.Spec.SW ![0, 64] W3 Cert.Spec.sl_W3b) (shapeCast Cert.Spec.SB b3 Cert.Spec.sc_V) n k := by
  rw [maximumf_apply, addf_apply, node_dot128_apply, node_bias_apply, broadcastInDim_scalar_apply, constant_apply,
    Ideal.ofBits_zero_f32, node_contract_eq]
  rfl

/-- The reference's node stage is the specification's, over the two 64-column blocks of `W3`. -/
theorem node_stage (x s : FVec Ideal S50000x64 .f32) (W3 : FVec Ideal S64x128 .f32) (b3 : FVec Ideal S64 .f32)
    (W4 : FVec Ideal S64x64 .f32) (b4 : FVec Ideal S64 .f32) :
    addf (Host.dotGeneral dot_S50000x64_S64x64_S50000x64_1_0_0_1_n_n none
        (maximumf
          (addf (Host.dotGeneral dot_S50000x128_S128x64_S50000x64_1_0_0_1_n_n none
              (concatenate S50000x128 1 [⟨S50000x64, x⟩, ⟨S50000x64, s⟩] concatenates_S50000x64_S50000x64_S50000x128_d1)
              (transpose S128x64 [1, 0] W3 transposes_S64x128_S128x64_1_0))
            (broadcastInDim S50000x64 ![0, 1] bcast_S1x64_S50000x64_0_1 (broadcastInDim S1x64 ![1] bcast_S64_S1x64_1 b3)))
          (broadcastInDim S50000x64 ![] bcast_S_S50000x64 (constant (F := Ideal) S_ .f32 0x00000000#32)))
        (transpose S64x64 [1, 0] W4 transposes_S64x64_S64x64_1_0))
      (broadcastInDim S50000x64 ![0, 1] bcast_S1x64_S50000x64_0_1 (broadcastInDim S1x64 ![1] bcast_S64_S1x64_1 b4))
    = Cert.Spec.nodeOut x s (extractStridedSlice Cert.Spec.SW ![0, 0] W3 Cert.Spec.sl_W3a)
        (extractStridedSlice Cert.Spec.SW ![0, 64] W3 Cert.Spec.sl_W3b) (shapeCast Cert.Spec.SB b3 Cert.Spec.sc_V) W4
        (shapeCast Cert.Spec.SB b4 Cert.Spec.sc_V) := by
  funext i
  obtain ⟨n, j, rfl⟩ : ∃ (n : Fin 50000) (j : Fin 64), i = ix2 n j := ⟨i 0, i 1, eq_ix2 i⟩
  rw [addf_apply, node_dot64_apply, node_bias_apply]
  unfold Cert.Spec.nodeOut
  refine congrArg₂ (· + ·) (Finset.sum_congr rfl fun k _ => ?_) rfl
  rw [node_hid_eq, transpose_ix2_apply]

end Cert.ReferenceIdeal.Stages

end
-- ==== Proof.RefRun.lean ====
/-
  The idealized reference's run, its result named as the layer: the generated run ends with the result at the
  composition of the reference's operations; its two perceptron stages are the specification's, and what lies
  around them — the index rows, the wrapped gathers, the sum into source nodes, the node table added — is the
  layer's own host side, term for term.
-/
import proofs.«407157_j86285892976708_1_alg».proof.Proof.Gen.ReferenceIdeal.Run
import proofs.«407157_j86285892976708_1_alg».proof.Proof.RefEdge
import proofs.«407157_j86285892976708_1_alg».proof.Proof.RefNode
import proofs.«407157_j86285892976708_1_alg».proof.Proof.Spec

set_option maxRecDepth 16384

noncomputable section

open Idealize.ShloMosaic Idealize.ShloMosaic.TcCoe Idealize.SL.Sem

namespace Cert.ReferenceIdeal.RefValue

open Cert.ReferenceIdeal Cert.ReferenceIdeal.Gen

/-- The generated gather record is the specification's: the same fields. -/
theorem gather_eq_gd : gather_S50000x64_S800000x1_S800000x64_1_0_n_n_0_1_164 = Cert.Spec.gd := rfl

/-- The generated scatter record is the specification's: the same fields. -/
theorem scatter_eq_sd : scatter_S50000x64_S800000x1_S800000x64_1_0_0_1 = Cert.Spec.sd := rfl

/-- The composition of the reference's operations is the layer over plainly gathered rows: its node stage and its
    edge stage are the specification's, and the index rows, the wrapped gathers, the sum into source nodes and the
    node table added around them are the layer's own, term for term. -/
theorem term_layer (X : FVec Ideal S50000x64 .f32) (E : IVec S2x800000 32) (A : FVec Ideal S800000x64 .f32)
    (W1 : FVec Ideal S64x192 .f32) (b1 : FVec Ideal S64 .f32) (W2 : FVec Ideal S64x64 .f32) (b2 : FVec Ideal S64 .f32)
    (W3 : FVec Ideal S64x128 .f32) (b3 : FVec Ideal S64 .f32) (W4 : FVec Ideal S64x64 .f32) (b4 : FVec Ideal S64 .f32) :
    addf (Host.dotGeneral dot_S50000x64_S64x64_S50000x64_1_0_0_1_n_n none (maximumf (addf (Host.dotGeneral dot_S50000x128_S128x64_S50000x64_1_0_0_1_n_n none (concatenate S50000x128 1 [⟨S50000x64, X⟩, ⟨S50000x64, (addf X (Host.scatterAdd scatter_S50000x64_S800000x1_S800000x64_1_0_0_1 (broadcastInDim S50000x64 ![] bcast_S_S50000x64 (constant S_ .f32 0x00000000#32)) (broadcastInDim S800000x1 ![0] bcast_S800000_S800000x1_0 (shapeCast _ (extractStridedSlice S1x800000 ![0, 0] E slices_S2x800000_S1x800000_0_0) shapeCasts_S1x800000_S800000)) (addf (Host.dotGeneral dot_S800000x64_S64x64_S800000x64_1_0_0_1_n_n none (maximumf (addf (Host.dotGeneral dot_S800000x192_S192x64_S800000x64_1_0_0_1_n_n none (concatenate S800000x192 1 [⟨S800000x64, (Host.gather gather_S50000x64_S800000x1_S800000x64_1_0_n_n_0_1_164 X (broadcastInDim S800000x1 ![0] bcast_S800000_S800000x1_0 (select (cmpi .slt (shapeCast _ (extractStridedSlice S1x800000 ![0, 0] E slices_S2x800000_S1x800000_0_0) shapeCasts_S1x800000_S800000) (broadcastInDim S800000 ![] bcast_S_S800000 (constantI S_ 32 0#32))) (addi (shapeCast _ (extractStridedSlice S1x800000 ![0, 0] E slices_S2x800000_S1x800000_0_0) shapeCasts_S1x800000_S800000) (broadcastInDim S800000 ![] bcast_S_S800000 (constantI S_ 32 50000#32))) (shapeCast _ (extractStridedSlice S1x800000 ![0, 0] E slices_S2x800000_S1x800000_0_0) shapeCasts_S1x800000_S800000))))⟩, ⟨S800000x64, A⟩, ⟨S800000x64, (Host.gather gather_S50000x64_S800000x1_S800000x64_1_0_n_n_0_1_164 X (broadcastInDim S800000x1 ![0] bcast_S800000_S800000x1_0 (select (cmpi .slt (shapeCast _ (extractStridedSlice S1x800000 ![1, 0] E slices_S2x800000_S1x800000_1_0) shapeCasts_S1x800000_S800000) (broadcastInDim S800000 ![] bcast_S_S800000 (constantI S_ 32 0#32))) (addi (shapeCast _ (extractStridedSlice S1x800000 ![1, 0] E slices_S2x800000_S1x800000_1_0) shapeCasts_S1x800000_S800000) (broadcastInDim S800000 ![] bcast_S_S800000 (constantI S_ 32 50000#32))) (shapeCast _ (extractStridedSlice S1x800000 ![1, 0] E slices_S2x800000_S1x800000_1_0) shapeCasts_S1x800000_S800000))))⟩] concatenates_S800000x64_S800000x64_S800000x64_S800000x192_d1) (transpose S192x64 [1, 0] W1 transposes_S64x192_S192x64_1_0)) (broadcastInDim S800000x64 ![0, 1] bcast_S1x64_S800000x64_0_1 (broadcastInDim S1x64 ![1] bcast_S64_S1x64_1 b1))) (broadcastInDim S800000x64 ![] bcast_S_S800000x64 (constant S_ .f32 0x00000000#32))) (transpose S64x64 [1, 0] W2 transposes_S64x64_S64x64_1_0)) (broadcastInDim S800000x64 ![0, 1] bcast_S1x64_S800000x64_0_1 (broadcastInDim S1x64 ![1] bcast_S64_S1x64_1 b2)))))⟩] concatenates_S50000x64_S50000x64_S50000x128_d1) (transpose S128x64 [1, 0] W3 transposes_S64x128_S128x64_1_0)) (broadcastInDim S50000x64 ![0, 1] bcast_S1x64_S50000x64_0_1 (broadcastInDim S1x64 ![1] bcast_S64_S1x64_1 b3))) (broadcastInDim S50000x64 ![] bcast_S_S50000x64 (constant S_ .f32 0x00000000#32))) (transpose S64x64 [1, 0] W4 transposes_S64x64_S64x64_1_0)) (broadcastInDim S50000x64 ![0, 1] bcast_S1x64_S50000x64_0_1 (broadcastInDim S1x64 ![1] bcast_S64_S1x64_1 b4))
    = Cert.Spec.layer X E A W1 b1 W2 b2 W3 b3 W4 b4 (Cert.Spec.rows X (Cert.Spec.srcOf E))
        (Cert.Spec.rows X (Cert.Spec.dstOf E)) := by
  rw [Stages.node_stage, Stages.edge_stage, gather_eq_gd, scatter_eq_sd]
  rfl

/-- Every weakly fair execution of the reference terminates with its result at the layer over plainly gathered
    rows, the arguments unchanged. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) =
          Cert.Spec.layer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
            (Cert.Spec.rows (m ((c.tc : Thread nD τ).loc main_arg0)) (Cert.Spec.srcOf (m ((c.tc : Thread nD τ).loc main_arg1))))
            (Cert.Spec.rows (m ((c.tc : Thread nD τ).loc main_arg0)) (Cert.Spec.dstOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (term_layer _ _ _ _ _ _ _ _ _ _ _), (h c).2⟩)
    (Cert.ReferenceIdeal.Value.run (F := Ideal) m ρ)

end Cert.ReferenceIdeal.RefValue

end
-- ==== Proof.lean ====
/-
  The message-passing layer: per edge, a two-layer perceptron on the source node's row, the edge's row and the
  destination node's row; its output rows summed into their source nodes and added to the node table; per node, a
  two-layer perceptron on the node's row and its aggregated row.

  The kernel splits the first layer's weight table of each perceptron into 64-column blocks and adds the partial
  products, where the reference joins the inputs side by side and takes one product: over the extended reals both are
  the same sums, regrouped (addition there is commutative and associative), and a change of float format is the
  identity. The kernel gathers node rows with a mask that replaces a row whose index is outside the node table; the
  reference gathers without one. Under the precondition every entry of the index pair array lies in the table's range
  `[0, 50000)`, the mask is set on every row, and the two gathers agree.

  Both programs' runs are stated with the result named as one function, the layer, of the arguments and of the two
  gathered row arrays; the two instances differ only in how the rows are gathered.
-/
import proofs.«407157_j86285892976708_1_alg».proof.Defs
import proofs.«407157_j86285892976708_1_alg».proof.Proof.Gen.Kernel
import proofs.«407157_j86285892976708_1_alg».proof.Proof.Gen.Kernel.Frame
import proofs.«407157_j86285892976708_1_alg».proof.Proof.Gen.KernelIdeal
import proofs.«407157_j86285892976708_1_alg».proof.Proof.Gen.KernelIdeal.Frame
import proofs.«407157_j86285892976708_1_alg».proof.Proof.Gen.ReferenceIdeal
import proofs.«407157_j86285892976708_1_alg».proof.Proof.Gen.ReferenceIdeal.Run
import proofs.«407157_j86285892976708_1_alg».proof.Proof.Gen.Pre_finite_inputs
import proofs.«407157_j86285892976708_1_alg».proof.Proof.RunNamed
import proofs.«407157_j86285892976708_1_alg».proof.Proof.KernelHost
import proofs.«407157_j86285892976708_1_alg».proof.Proof.Take
import proofs.«407157_j86285892976708_1_alg».proof.Proof.PreRange
import proofs.«407157_j86285892976708_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the layer's value: the kernel's over
    masked gathers, the reference's over plain ones, equal because the precondition puts every index in range. -/
theorem algebraic : Cert.algebraic_KernelIdeal_ReferenceIdeal := by
  intro m ρ m' ρ' hpre hagree
  refine ⟨fun c => Cert.Spec.layer (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4))
      (m ((c.tc : Thread _ _).loc Cert.KernelIdeal.main_arg5)) (m ((c.tc : Thread _ _).loc Cert.KernelIdeal.main_arg6))
      (m ((c.tc : Thread _ _).loc Cert.KernelIdeal.main_arg7)) (m ((c.tc : Thread _ _).loc Cert.KernelIdeal.main_arg8))
      (m ((c.tc : Thread _ _).loc Cert.KernelIdeal.main_arg9)) (m ((c.tc : Thread _ _).loc Cert.KernelIdeal.main_arg10))
      (Cert.Spec.rowsMasked (m ((c.tc : Thread _ _).loc Cert.KernelIdeal.main_arg0))
        (Cert.Spec.srcOf (m ((c.tc : Thread _ _).loc Cert.KernelIdeal.main_arg1))))
      (Cert.Spec.rowsMasked (m ((c.tc : Thread _ _).loc Cert.KernelIdeal.main_arg0))
        (Cert.Spec.dstOf (m ((c.tc : Thread _ _).loc Cert.KernelIdeal.main_arg1)))), ?_, ?_⟩
  · exact (θ_run Cert.KernelIdeal.defs _ _).mono
      (fun _ h c => ⟨(h c).1.trans (Cert.KernelIdeal.HostValue.kernel_result m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.RefValue.run_layer m' ρ')
    obtain ⟨h0, h1, h2, h3, h4, h5, h6, h7, h8, h9, h10⟩ := hagree c
    rw [h0, h1, h2, h3, h4, h5, h6, h7, h8, h9, h10]
    beta_reduce
    rw [Cert.Spec.rowsMasked_eq_rows _ _ (Cert.PreRange.src_range (hpre c)),
      Cert.Spec.rowsMasked_eq_rows _ _ (Cert.PreRange.dst_range (hpre c))]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
